-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S128 .f32) (main_arg7 : FVec F S128x8 .f32) (main_arg8 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x8 .f32) (main_arg8 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x8 : Shape := ⟨2, ![1, 8]⟩
abbrev S64x8 : Shape := ⟨2, ![64, 8]⟩
abbrev S64x128 : Shape := ⟨2, ![64, 128]⟩
abbrev S1x64 : Shape := ⟨2, ![1, 64]⟩
abbrev S5000x64 : Shape := ⟨2, ![5000, 64]⟩
abbrev S64 : Shape := ⟨1, ![64]⟩
abbrev S64x1 : Shape := ⟨2, ![64, 1]⟩

abbrev nBuf : Space → Nat
  | .hbm => 70
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x1, .i32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S1x128, .f32⟩
  | .hbm, ⟨68, _⟩ => ⟨S1x8, .f32⟩
  | .hbm, ⟨69, _⟩ => ⟨S64x8, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x1, .i32⟩
  | .local _ .vmem, ⟨13, _⟩ => ⟨S5000x1, .i32⟩
  | .local _ .vmem, ⟨14, _⟩ => ⟨S128x128, .f32⟩
  | .local _ .vmem, ⟨15, _⟩ => ⟨S1x128, .f32⟩
  | .local _ .vmem, ⟨16, _⟩ => ⟨S128x8, .f32⟩
  | .local _ .vmem, ⟨17, _⟩ => ⟨S1x8, .f32⟩
  | .local _ .vmem, ⟨18, _⟩ => ⟨S64x8, .f32⟩
  | .local _ .vmem, ⟨19, _⟩ => ⟨S64x128, .f32⟩
  | .local _ .vmem, ⟨20, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_21 : BitVec 32 := 0#32
  let v43 : BitVec 1 := Scalar.cmpi .ne v42 c0_i32_21
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S5000x64_d1_w32 : S5000x64.Iotas .tc 32 [1]
  broadcasts_S5000x1_S5000x64 : S5000x1.Broadcasts S5000x64
  natLt_1_32 : 1 < 32
  reduces_S5000x64_S64 : S5000x64.Reduces [0] S64
  shapeCasts_S64_S1x64 : S64.ShapeCasts S1x64
  transposes_S1x64_p1_0_S64x1 : S1x64.Transposes [1, 0] S64x1
  broadcasts_S64x1_S64x128 : S64x1.Broadcasts S64x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .i32 = 32 ∨ (Rect.block (s := S50000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x8.size a ≤ S64x8.size a
  hwx1_7 : ∀ i : grid1.Coords, EltTy.bits .f32 = 32 ∨ (Rect.block (s := S64x8) S64x8.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S64x8.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x8 : Shape := ⟨2, ![64, 8]⟩
abbrev S1x8 : Shape := ⟨2, ![1, 8]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S50000x128, .f32⟩
  | .hbm, ⟨63, _⟩ => ⟨S1600000x1, .i32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x1, .f32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S50000x128, .f32⟩
  | .hbm, ⟨86, _⟩ => ⟨S1600000x1, .i32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S64, .f32⟩
  | .hbm, ⟨99, _⟩ => ⟨S50000x1, .i32⟩
  | .hbm, ⟨100, _⟩ => ⟨S64, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x8, .f32⟩
  | .hbm, ⟨112, _⟩ => ⟨S1x8, .f32⟩
  | .hbm, ⟨113, _⟩ => ⟨S64x8, .f32⟩
  | .hbm, ⟨114, _⟩ => ⟨S64x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call1_cst : Ref sig .tc := ⟨.hbm, 69, rfl⟩
abbrev main_call1_v0 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x8_S64x8_1_0_0_1_n_n_wf : DotDims.WF S64x128 S128x8 S64x8 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.WRegion0.lean ====
/-
  The first kernel launch of the program (the dense layer: one row tile per grid point), for any float
  family: what the body leaves in the output tile as a function of the four input tiles, the proof data of the
  launch, and the body's Hoare triple at every grid point.
-/
import proofs.«428788_j14774687498490_3_alg».proof.Proof.Gen.Kernel.Launch
import proofs.«428788_j14774687498490_3_alg».proof.Proof.Gen.Kernel.Skeleton
import proofs.«428788_j14774687498490_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: a parameter
variable (V : (c : Dev nD) → (b : Ref sig .tc) → Buf (Elt F) ((c : Thread nD τ).loc b))

/-- The tile of operand `w` that grid point `t` works on, read off the operand's array at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output tile from the four input tiles: `relu ((agg · dis) W + b) · dis`, row by row. -/
def tile0 (xagg : Vec F S5000x128 .f32) (xdis : Vec F S5000x1 .f32) (xw : Vec F S128x128 .f32) (xb : Vec F S1x128 .f32) :
    Vec F S5000x128 .f32 :=
  k0_pay1 xdis xagg xw xb

/-- The proof data of the launch on core `c`: every operand's array as found at entry; after the body each input
    tile as it was and the output tile at `tile0` of the inputs. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => tile0 (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = tile0 (blk0 V c 0 t) (blk0 V c 1 t) (blk0 V c 2 t) (blk0 V c 3 t) := by dsimp only [dat0]

/-! ## Each input's staging buffer at a grid point -/

/-- The zero offsets of a whole-tile access, as the constant function. -/
theorem zero_off : (![0, 0] : Fin 2 → ℕ) = fun _ => 0 := by
  funext a; fin_cases a <;> rfl

/-- The staging buffer of the agg window holds the point's agg tile when the body starts: the window is an input the
    body leaves as found, so fetched at the point or not it holds the tile the point's block index names. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)

/-- The same for the dis window. -/
theorem before0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)

/-- The same for the weight window, which is fetched at the first point only: at a later point the block index has
    not moved, and the buffer still holds the one tile. -/
theorem before0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)

/-- The same for the bias window, fetched at the first point only. -/
theorem before0_3 (c : Dev nD) (t : Fin cfg0.N) (d) : (dat0 V c).before 3 t d = blk0 V c 3 t :=
  ((dat0 V c).before_in_eq_fetched 3 rfl (fun _ => rfl) (fun _ _ _ => rfl)
      (fun t => by rw [after0_3]; unfold Dat.blockOf blk0; rw [A_eq0]; try rfl) t d).trans
    (by unfold Dat.fetched Dat.blockOf blk0; rw [A_eq0]; try rfl)

/-- The rectangle of the body's one store: the whole output tile. -/
abbrev rOut : Rect S5000x128 := Rect.unit (s := S5000x128) ![0, 0] S5000x128.size inb_S5000x128_S5000x128_0_0

/-- The one store covers the output tile. -/
theorem cover0 (p : Vec F S5000x128 .f32) (y : S5000x128.Idx) :
    ∃ pc ∈ ([⟨rOut, p⟩] : List (View.Piece (Elt F) S5000x128 .f32)), y ∈ pc.1.set :=
  ⟨⟨rOut, p⟩, List.mem_singleton_self _,
    View.mem_set_unit_zero (S := S5000x128) zero_off inb_S5000x128_S5000x128_0_0 y⟩

/-! ## The body's triple -/

set_option maxHeartbeats 1000000 in
/-- The kernel function on whole staging buffers, the four inputs' at contents \`xagg\`, \`xdis\`, \`xw\`, \`xb\` and the
    output's at anything, runs to the continuation with the inputs' as they were and the output's at \`tile0\` of them:
    it reads each input buffer whole, reads the output buffer (the value is dropped), and stores the one payload over
    the whole output buffer. -/
theorem sound_kernel0 (c : Dev nD) (E : Set ℕ) (i : grid0.Coords)
    (arg1 : Memref sig .tc .vmem S5000x128 .f32) (harg1 : arg1.IsWhole)
    (arg2 : Memref sig .tc .vmem S5000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (xagg : Vec F S5000x128 .f32) (xdis : Vec F S5000x1 .f32) (xw : Vec F S128x128 .f32) (xb : Vec F S1x128 .f32)
    (K : PUnit → sProp 𝕄) :
    iprop(owns (c : Thread nD τ) arg1 fullShare xagg ∗ owns (c : Thread nD τ) arg2 fullShare xdis
        ∗ owns (c : Thread nD τ) arg3 fullShare xw ∗ owns (c : Thread nD τ) arg4 fullShare xb
        ∗ (∃ d, owns (c : Thread nD τ) arg5 fullShare d)
        ∗ (iprop(owns (c : Thread nD τ) arg1 fullShare xagg ∗ owns (c : Thread nD τ) arg2 fullShare xdis
            ∗ owns (c : Thread nD τ) arg3 fullShare xw ∗ owns (c : Thread nD τ) arg4 fullShare xb
            ∗ owns (c : Thread nD τ) arg5 fullShare (tile0 xagg xdis xw xb)) -∗ K ⟨⟩))
      ⊢ wp frame (wpE (defs₀ (F := F)) Variants.none c none) E
          (cc0__dense_relu_kernel i arg1 harg1 arg2 harg2 arg3 harg3 arg4 harg4 arg5 harg5) K := by
  simp only [cc0__dense_relu_kernel_eq_skeleton]; unfold cc0__dense_relu_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _), View.canon_unit_zero (S := S5000x128) zero_off]
  unfold tile0
  simp only [View.readAt_eq_ld, View.ld_unit_zero (S := S5000x128) zero_off, View.ld_unit_zero (S := S5000x1) zero_off,
    View.ld_unit_zero (S := S128x128) zero_off, View.ld_unit_zero (S := S1x128) zero_off]

/-! ## The body obligation at a grid point -/

/-- What the body is entered with at point \`t\`: the invariant, the core's debts, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold the point's tiles, so the kernel's triple applies; the
    invariant and the debts are not touched and pass through. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's triple at every grid point of the launch. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.WRegion1.lean ====
/-
  The second kernel launch of the program (dense layer, pooling by graph and classifier, one row tile per grid
  point, two accumulators carried in scratch memory across the grid), for any float family: the accumulators after
  each grid point by recursion on the point, the result tile the last point stores, the proof data of the launch, and
  the body's Hoare triple at every grid point.
-/
import proofs.«428788_j14774687498490_3_alg».proof.Proof.Gen.Kernel.Launch
import proofs.«428788_j14774687498490_3_alg».proof.Proof.Gen.Kernel.Skeleton
import proofs.«428788_j14774687498490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: a parameter
variable (V : (c : Dev nD) → (b : Ref sig .tc) → Buf (Elt F) ((c : Thread nD τ).loc b))

/-- The tile of operand `w` that grid point `t` works on, read off the operand's array at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch accumulators as whole memrefs: the pooled sums and the counts. -/
abbrev scAcc : Memref sig .tc .vmem S64x128 .f32 := Memref.whole cc1_scratch0
abbrev scCnt : Memref sig .tc .vmem S1x64 .f32 := Memref.whole cc1_scratch1

/-- One grid point's update of the pooled sums: the previous sums plus (one-hot of the tile's graph ids)ᵀ times the
    tile's hidden rows `relu ((agg · dis) W + b)`. -/
def accStep (prev : Vec F S64x128 .f32) (xagg : Vec F S5000x128 .f32) (xdis : Vec F S5000x1 .f32) (xgid : Vec F S5000x1 .i32)
    (xw : Vec F S128x128 .f32) (xb : Vec F S1x128 .f32) : Vec F S64x128 .f32 :=
  k1_pay6 xagg xdis xw xb xgid prev

/-- One grid point's update of the counts: the previous counts plus the column sums of the tile's one-hot matrix. -/
def cntStep (prev : Vec F S1x64 .f32) (xgid : Vec F S5000x1 .i32) : Vec F S1x64 .f32 :=
  k1_pay1 (k1_pay5 xgid) prev

/-- The accumulators (pooled sums, counts) after grid point `n`: zero before the first point, then one update per
    point. -/
def scr1 (c : Dev nD) : (n : ℕ) → n < cfg1.N → Vec F S64x128 .f32 × Vec F S1x64 .f32
  | 0, hn => (accStep (k1_pay3 (F := F)) (blk1 V c 0 ⟨0, hn⟩) (blk1 V c 1 ⟨0, hn⟩) (blk1 V c 2 ⟨0, hn⟩) (blk1 V c 3 ⟨0, hn⟩) (blk1 V c 4 ⟨0, hn⟩),
      cntStep (k1_pay4 (F := F)) (blk1 V c 2 ⟨0, hn⟩))
  | n + 1, hn => (accStep (scr1 c n (Nat.lt_of_succ_lt hn)).1 (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
      cntStep (scr1 c n (Nat.lt_of_succ_lt hn)).2 (blk1 V c 2 ⟨n + 1, hn⟩))

/-- The result tile as computed from the accumulators after point `t` (stored by the body at the last point only):
    `(sums / max counts 1) Wc + bc`. -/
def logits1 (c : Dev nD) (t : Fin cfg1.N) : Vec F S64x8 .f32 :=
  k1_pay2 (scr1 V c t.val t.isLt).2 (scr1 V c t.val t.isLt).1 (blk1 V c 5 t) (blk1 V c 6 t)

/-- The launch's invariant before position `n`: before the first point whatever the launch hands over; afterwards the
    two accumulators at what the point before left, the other scoped buffers at anything, the generator register at
    some state. -/
def PhiS1 (c : Dev nD) : (n : ℕ) → n ≤ cfg1.N → sProp 𝕄
  | 0, _ => Pipeline.ΦA spec1 c
  | n + 1, hn => iprop(owns (c : Thread nD τ) scAcc fullShare (scr1 V c n hn).1
      ∗ owns (c : Thread nD τ) scCnt fullShare (scr1 V c n hn).2
      ∗ (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

/-- The proof data of the launch on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => logits1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = logits1 V c t := by dsimp only [dat1]

/-! ## The conditions of the body's two conditionals, over the grid -/

/-- The condition of the body's first conditional (both accumulators are zeroed under it), from the grid coordinate. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The condition of the second (the result tile is computed and stored under it). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-- The seven operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where the second condition fails the result window is idle and is not written back; -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- where it holds the window is live. -/
theorem liveAt1_7 : ∀ t : Fin cfg1.N, cond1_1 (grid1.coords t) → cfg1.idle 7 (grid1.coords t) = false := by decide +kernel

/-- The offsets of every load and store of the body: zero along both axes. -/
theorem offs1_zero : (![0, 0] : Fin 2 → Nat) = fun _ => 0 := funext fun a => by fin_cases a <;> rfl

/-- A store through the whole-shape rectangle at zero offsets, the last of the stores into a buffer, leaves its payload
    there, whatever the buffer held and whatever was stored before. -/
theorem read_writes_unit1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body on any whole memrefs, one triple per control case

Each load reads a whole buffer, each store overwrites a whole buffer: so what a buffer holds after the body is the
payload of the last store into it, over the contents the loads found. -/

set_option maxHeartbeats 1000000 in
/-- Points 1..8 (neither conditional taken): from the accumulators at `a`, `b` the body leaves them at one update each. -/
theorem run_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : ¬cond1_0 i) (hc1 : ¬cond1_1 i) (x0 : Vec F S5000x128 .f32) (x1 : Vec F S5000x1 .f32) (x2 : Vec F S5000x1 .i32) (x3 : Vec F S128x128 .f32) (x4 : Vec F S1x128 .f32)
    (a : Vec F S64x128 .f32) (b : Vec F S1x64 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg9 fullShare a ∗ owns (c : Thread nD τ) arg10 fullShare b
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg9 fullShare (accStep a x0 x1 x2 x3 x4) ∗ owns (c : Thread nD τ) arg10 fullShare (cntStep b x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfa; obtain rfl := harg10.eq_unread hfb
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [HA]
  · iexists _; isplitr
    swap; · iexact HA
    ipureintro
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero]
    rfl
  iexists _; isplitr
  swap; · iexact HB
  ipureintro
  rw [read_writes_unit1 _ _ offs1_zero]
  sl_unfold_words
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero]
  rfl

set_option maxHeartbeats 1000000 in
/-- Point 0 (the first conditional taken): whatever the accumulators held, the body zeroes them and leaves one update
    of the zero accumulators each. -/
theorem run_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : cond1_0 i) (hc1 : ¬cond1_1 i) (x0 : Vec F S5000x128 .f32) (x1 : Vec F S5000x1 .f32) (x2 : Vec F S5000x1 .i32) (x3 : Vec F S128x128 .f32) (x4 : Vec F S1x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ a, owns (c : Thread nD τ) arg9 fullShare a) ∗ (∃ b, owns (c : Thread nD τ) arg10 fullShare b)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg9 fullShare (accStep (k1_pay3 (F := F)) x0 x1 x2 x3 x4) ∗ owns (c : Thread nD τ) arg10 fullShare (cntStep (k1_pay4 (F := F)) x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%a, %fa, -, HA⟩, ⟨%b, %fb, -, HB⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [HA]
  · iexists _; isplitr
    swap; · iexact HA
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  iexists _; isplitr
  swap; · iexact HB
  ipureintro
  sl_unfold_words
  rw [read_writes_unit1 _ _ offs1_zero]
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
  rfl

set_option maxHeartbeats 1000000 in
/-- Point 9 (the second conditional taken): one update of each accumulator, then the result tile computed from the
    updated accumulators and the classifier's weights and stored into the result window, whatever that held. -/
theorem run_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : ¬cond1_0 i) (hc1 : cond1_1 i) (x0 : Vec F S5000x128 .f32) (x1 : Vec F S5000x1 .f32) (x2 : Vec F S5000x1 .i32) (x3 : Vec F S128x128 .f32) (x4 : Vec F S1x128 .f32) (x5 : Vec F S128x8 .f32) (x6 : Vec F S1x8 .f32)
    (a : Vec F S64x128 .f32) (b : Vec F S1x64 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare a ∗ owns (c : Thread nD τ) arg10 fullShare b
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (k1_pay2 (cntStep b x2) (accStep a x0 x1 x2 x3 x4) x5 x6)
            ∗ owns (c : Thread nD τ) arg9 fullShare (accStep a x0 x1 x2 x3 x4) ∗ owns (c : Thread nD τ) arg10 fullShare (cntStep b x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hf5; obtain rfl := harg7.eq_unread hf6
  obtain rfl := harg9.eq_unread hfa; obtain rfl := harg10.eq_unread hfb
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    swap; · iexact H7
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  isplitl [HA]
  · iexists _; isplitr
    swap; · iexact HA
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  iexists _; isplitr
  swap; · iexact HB
  ipureintro
  sl_unfold_words
  rw [read_writes_unit1 _ _ offs1_zero]
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
  rfl

/-! ## The invariant's cases -/

/-- The invariant after a point, with the two accumulators at given contents. -/
def PhiT1 (c : Dev nD) (a : Vec F S64x128 .f32) (b : Vec F S1x64 .f32) : sProp 𝕄 :=
  iprop(owns (c : Thread nD τ) scAcc fullShare a
      ∗ owns (c : Thread nD τ) scCnt fullShare b
      ∗ (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiT1 c (scr1 V c n hn).1 (scr1 V c n hn).2 := rfl

theorem PhiS1_pos (c : Dev nD) (n : ℕ) (h : n ≤ cfg1.N) (hz : n ≠ 0) :
    PhiS1 V c n h = PhiT1 c (scr1 V c (n - 1) (by omega)).1 (scr1 V c (n - 1) (by omega)).2 := by
  cases n with
  | zero => exact absurd rfl hz
  | succ n => rfl

/-- What the launch hands over, with the two accumulators as whole memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ a, owns (c : Thread nD τ) scAcc fullShare a)
      ∗ (∃ b, owns (c : Thread nD τ) scCnt fullShare b)) ∗ (∃ r, prngReg c r)) := by
  unfold Pipeline.ΦA; rw [scopedRest1_eq]; simp only [scAcc, scCnt, owns_whole]; try rfl

/-! ## The launch at a point: the windows' current buffers, what they hold, the accumulators -/

/-- Each window's current staging memref at point `t`, as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x8 .f32 := win1_7.stage (cfg1.slots t 7)
abbrev hs1_7 (t : Fin cfg1.N) : (ms1_7 t).IsWhole := hstage1_7 ((cfg1.slots t 7).cast nbuf1_7)

/-- What the body leaves in an operand window's buffer is the tile it found there. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]

/-- Each operand window's current buffer holds its tile at every point, fetched there or not: an unfetched window's
    block index has not moved since the point before, and the body left the tile in place. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A_eq1]; try rfl) t d).trans
    (by unfold Dat.fetched Dat.blockOf blk1; rw [A_eq1]; try rfl)

/-- The accumulators after the first point: one update of the zero accumulators. -/
theorem scr1_zero (c : Dev nD) (t : Fin cfg1.N) (hz : t.val = 0) :
    scr1 V c t.val t.isLt = (accStep (k1_pay3 (F := F)) (blk1 V c 0 t) (blk1 V c 1 t) (blk1 V c 2 t) (blk1 V c 3 t) (blk1 V c 4 t),
      cntStep (k1_pay4 (F := F)) (blk1 V c 2 t)) := by
  obtain ⟨n, hn⟩ := t
  cases n with
  | zero => rfl
  | succ n => exact absurd hz (Nat.succ_ne_zero n)

/-- The accumulators after a later point: one update of what the point before left. -/
theorem scr1_pos (c : Dev nD) (t : Fin cfg1.N) (hz : t.val ≠ 0) :
    scr1 V c t.val t.isLt = (accStep (scr1 V c (t.val - 1) (Nat.lt_of_le_of_lt (Nat.sub_le _ _) t.isLt)).1 (blk1 V c 0 t) (blk1 V c 1 t) (blk1 V c 2 t) (blk1 V c 3 t) (blk1 V c 4 t),
      cntStep (scr1 V c (t.val - 1) (Nat.lt_of_le_of_lt (Nat.sub_le _ _) t.isLt)).2 (blk1 V c 2 t)) := by
  obtain ⟨n, hn⟩ := t
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation at a point -/

/-- What the body is handed at point `t`: the invariant, what the core owes, the windows' current buffers. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the operand windows hold their tiles; the point's number decides the control case; the
    invariant hands the body the accumulators at what the point before left (at anything before the first point) and
    takes them back at this point's; the result window is handed back untouched except at the last point, where it
    holds the result tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [scr1_zero V c t h0]; dsimp only
    rw [PhiS1_castSucc V c t, PhiS1_zero V c _ _ h0, PhiA1_eq]
    unfold PhiT1
    iintro ⟨⟨⟨R0, R1, R2, R3, R4, R5, R6, R7, HA, HB⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, HA, HB⟩
    isplitl [HA HB R0 R1 R2 R3 R4 R5 R6 R7 Hg]
    · isplitl [HA]; · iexact HA
      isplitl [HB]; · iexact HB
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond1_0 (grid1.coords t) := fun h => h0 ((hcond1_0 t).mp h)
    by_cases h9 : t.val = 9
    · have hc1 : cond1_1 (grid1.coords t) := (hcond1_1 t).mpr h9
      rw [show (dat1 V c).leavesExact 7 t = owns (c : Thread nD τ) (ms1_7 t) fullShare ((dat1 V c).after 7 t) from by
        unfold Dat.leavesExact; rw [liveAt1_7 t hc1], after1_7]
      unfold logits1
      rw [scr1_pos V c t h0]; dsimp only
      rw [PhiS1_castSucc V c t, PhiS1_pos V c _ _ h0]
      unfold PhiT1
      iintro ⟨⟨HA, HB, R0, R1, R2, R3, R4, R5, R6, R7, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) (blk1 V c 5 t) (blk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HB]; · iexact HB
      iintro ⟨H0, H1, H2, H3, H4, H5, H6, H7, HA, HB⟩
      isplitl [HA HB R0 R1 R2 R3 R4 R5 R6 R7 Hg]
      · isplitl [HA]; · iexact HA
        isplitl [HB]; · iexact HB
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h9 ((hcond1_1 t).mp h)
      rw [Dat.leavesExact_idle (dat1 V c) 7 t (idleAt1_7 t hc1) (noFlush1_7 t hc1)]
      rw [scr1_pos V c t h0]; dsimp only
      rw [PhiS1_castSucc V c t, PhiS1_pos V c _ _ h0]
      unfold PhiT1
      iintro ⟨⟨HA, HB, R0, R1, R2, R3, R4, R5, R6, R7, Hg⟩, Ho, ⟨%d0, H0⟩, ⟨%d1, H1⟩, ⟨%d2, H2⟩, ⟨%d3, H3⟩, ⟨%d4, H4⟩, ⟨%d5, H5⟩, ⟨%d6, H6⟩, H7⟩
      iapply (run_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) _ _ Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB R0 R1 R2 R3 R4 R5 R6 R7 Hg]
      · isplitl [HA]; · iexact HA
        isplitl [HB]; · iexact HB
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's triple at every grid point of the launch. -/
theorem body_obligation1 (c : Dev nD) :
    BodyObligation (dat1 (F := F) V c) (defs₀ (F := F)) Variants.none () Set.univ := fun t => by
  rw [bigSep_W1, bigSep_W1]
  exact sound_body1 V c t

/-! ## Into and out of the invariant -/

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiT1
  iintro ⟨HA, HC, H0, H1, H2, H3, H4, H5, H6, H7, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    iexists _; iexact HC
  iexact Hg

/-- After the last point the invariant gives back what the launch handed over (the accumulators' contents forgotten). -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.WWalk.lean ====
/-
  The whole program as a walk through its six items (three host stretches, the first kernel launch, a host
  stretch, the second kernel launch), for any float family: the contents of the core's buffers at each boundary as a
  fold from the launch memory, the two launches as segments over those contents, and the run — every weakly fair
  execution terminates with the result buffer at what the second launch writes back and the arguments unchanged.
-/
import proofs.«428788_j14774687498490_3_alg».proof.Proof.WRegion0
import proofs.«428788_j14774687498490_3_alg».proof.Proof.WRegion1
import proofs.«428788_j14774687498490_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first launch finds in the core's buffers: the launch memory after the first three host stretches
    (the generated fold `Gen.V3`), read at the TensorCore's references. -/
abbrev entry0 (c : Dev nD) (b : Ref sig .tc) : Buf (Elt F) ((c : Thread nD τ).loc b) := Gen.V3 m c b

/-- After the first launch: its operands' arrays at what the pipeline leaves (inputs as entered, the output at
    its write-backs folded), every other buffer as entered. -/
def exit0 (c : Dev nD) : Valuation τ sig (Elt F) :=
  Pipeline.withArrays spec0 c (Gen.V3 m c) fun w => (dat0 (entry0 m) c).arrAt w cfg0.N

/-- After the fourth host stretch: what the second launch finds. -/
abbrev mid1 (c : Dev nD) : Valuation τ sig (Elt F) := StableHlo.after hostOps1 (exit0 m c)
abbrev entry1 (c : Dev nD) (b : Ref sig .tc) : Buf (Elt F) ((c : Thread nD τ).loc b) := mid1 m c b

/-- After the second launch: the end of the program. -/
def exit1 (c : Dev nD) : Valuation τ sig (Elt F) :=
  Pipeline.withArrays spec1 c (mid1 m c) fun w => (dat1 (entry1 m) c).arrAt w cfg1.N

/-! ## The boundary contents at a launch's operands and elsewhere -/

/-- After the first launch each of its operands' arrays holds what the pipeline leaves there. -/
theorem exit0_arr (c : Dev nD) (w : Fin cfg0.W) :
    exit0 m c (Proc.devRef .tc (Pipeline.arrRef spec0 w)) = (dat0 (entry0 m) c).arrAt w cfg0.N := by
  unfold exit0; exact Pipeline.withArrays_arr spec0 launch0.win.arr_inj c _ _ w

/-- After the second launch each of its operands' arrays holds what the pipeline leaves there. -/
theorem exit1_arr (c : Dev nD) (w : Fin cfg1.W) :
    exit1 m c (Proc.devRef .tc (Pipeline.arrRef spec1 w)) = (dat1 (entry1 m) c).arrAt w cfg1.N := by
  unfold exit1; exact Pipeline.withArrays_arr spec1 launch1.win.arr_inj c _ _ w

/-- The result buffer at the end is what the second launch's result window wrote back. -/
theorem exit1_result (c : Dev nD) :
    exit1 m c (Proc.devRef .tc main_v47) = (dat1 (entry1 m) c).arrAt 7 cfg1.N :=
  exit1_arr m c 7

/-- The first launch's output array, as the fourth host stretch finds it, is what its output window wrote back. -/
theorem exit0_result (c : Dev nD) :
    exit0 m c (Proc.devRef .tc main_v32) = (dat0 (entry0 m) c).arrAt 4 cfg0.N :=
  exit0_arr m c 4

/-- A buffer that is no operand array of the first launch is, after it, as entered. -/
theorem exit0_of_ne (c : Dev nD) (b : Ref sig .tc) (hb : ∀ w, Pipeline.arrRef spec0 w ≠ b) :
    exit0 m c (Proc.devRef .tc b) = Gen.V3 m c (Proc.devRef .tc b) := by
  unfold exit0; exact Pipeline.withArrays_of_ne spec0 c _ _ b hb

/-- A buffer that is no operand array of the second launch is, after it, as entered. -/
theorem exit1_of_ne (c : Dev nD) (b : Ref sig .tc) (hb : ∀ w, Pipeline.arrRef spec1 w ≠ b) :
    exit1 m c (Proc.devRef .tc b) = mid1 m c (Proc.devRef .tc b) := by
  unfold exit1; exact Pipeline.withArrays_of_ne spec1 c _ _ b hb

/-- The exit contents of each launch read at the TensorCore's references. -/
abbrev out0 (c : Dev nD) (b : Ref sig .tc) : Buf (Elt F) ((c : Thread nD τ).loc b) := exit0 m c b
abbrev out1 (c : Dev nD) (b : Ref sig .tc) : Buf (Elt F) ((c : Thread nD τ).loc b) := exit1 m c b

theorem hF0 (c : Dev nD) (w : Fin cfg0.W) : (dat0 (entry0 m) c).arrAt w cfg0.N = out0 m c (Pipeline.arrRef spec0 w) :=
  (exit0_arr m c w).symm
theorem hrest0 (c : Dev nD) : ∀ b, b ∉ Finset.univ.image (Pipeline.arrRef spec0) → out0 m c b = entry0 m c b :=
  fun b hb => exit0_of_ne m c b fun w e => hb (Finset.mem_image.mpr ⟨w, Finset.mem_univ _, e⟩)
theorem hF1 (c : Dev nD) (w : Fin cfg1.W) : (dat1 (entry1 m) c).arrAt w cfg1.N = out1 m c (Pipeline.arrRef spec1 w) :=
  (exit1_arr m c w).symm
theorem hrest1 (c : Dev nD) : ∀ b, b ∉ Finset.univ.image (Pipeline.arrRef spec1) → out1 m c b = entry1 m c b :=
  fun b hb => exit1_of_ne m c b fun w e => hb (Finset.mem_image.mpr ⟨w, Finset.mem_univ _, e⟩)

/-! ## The arguments end as launched

No host stretch writes an argument, and a launch either does not touch it or reads it through an input window, whose
array the pipeline leaves as entered: the fold at an argument's buffer walks back to the launch memory. -/

/-- A buffer none of the first three host stretches writes is, when the first launch is entered, as launched. -/
theorem V3_launch (c : Dev nD) (r : Ref sig .tc) (h2 : r ∉ hostOps0_2_W) (h1 : r ∉ hostOps0_1_W) (h0 : r ∉ hostOps0_W) :
    Gen.V3 m c (Proc.devRef .tc r) = m ((c : Thread nD τ).loc r) :=
  (Gen.V3_of m c r h2).trans <| (Gen.V2_of m c r h1).trans <| (Gen.V1_of m c r h0).trans rfl

/-- A buffer the fourth host stretch does not write is, when the second launch is entered, as the first left it. -/
theorem mid1_of (c : Dev nD) (r : Ref sig .tc) (h : r ∉ hostOps1_W) :
    mid1 m c (Proc.devRef .tc r) = exit0 m c (Proc.devRef .tc r) :=
  StableHlo.after_of_writes_sub hostOps1 _ hostOps1_writes h

/-- An input window's array of the first launch is, after it, as entered. -/
theorem exit0_in (c : Dev nD) (w : Fin cfg0.W) (hin : (cfg0.win w).isOut = false) :
    exit0 m c (Proc.devRef .tc (Pipeline.arrRef spec0 w)) = Gen.V3 m c (Proc.devRef .tc (Pipeline.arrRef spec0 w)) :=
  (exit0_arr m c w).trans (((dat0 (entry0 m) c).arrAt_in w hin _).trans (A_eq0 (entry0 m) c w))

/-- An input window's array of the second launch is, after it, as entered. -/
theorem exit1_in (c : Dev nD) (w : Fin cfg1.W) (hin : (cfg1.win w).isOut = false) :
    exit1 m c (Proc.devRef .tc (Pipeline.arrRef spec1 w)) = mid1 m c (Proc.devRef .tc (Pipeline.arrRef spec1 w)) :=
  (exit1_arr m c w).trans (((dat1 (entry1 m) c).arrAt_in w hin _).trans (A_eq1 (entry1 m) c w))

theorem exit1_main_arg0 (c : Dev nD) : exit1 m c (Proc.devRef .tc main_arg0) = m ((c : Thread nD τ).loc main_arg0) :=
  (exit1_of_ne m c main_arg0 (by decide)).trans <| (mid1_of m c main_arg0 (by decide)).trans <|
    (exit0_of_ne m c main_arg0 (by decide)).trans <| V3_launch m c main_arg0 (by decide) (by decide) (by decide)
theorem exit1_main_arg1 (c : Dev nD) : exit1 m c (Proc.devRef .tc main_arg1) = m ((c : Thread nD τ).loc main_arg1) :=
  (exit1_of_ne m c main_arg1 (by decide)).trans <| (mid1_of m c main_arg1 (by decide)).trans <|
    (exit0_of_ne m c main_arg1 (by decide)).trans <| V3_launch m c main_arg1 (by decide) (by decide) (by decide)
theorem exit1_main_arg2 (c : Dev nD) : exit1 m c (Proc.devRef .tc main_arg2) = m ((c : Thread nD τ).loc main_arg2) :=
  (exit1_of_ne m c main_arg2 (by decide)).trans <| (mid1_of m c main_arg2 (by decide)).trans <|
    (exit0_of_ne m c main_arg2 (by decide)).trans <| V3_launch m c main_arg2 (by decide) (by decide) (by decide)
theorem exit1_main_arg3 (c : Dev nD) : exit1 m c (Proc.devRef .tc main_arg3) = m ((c : Thread nD τ).loc main_arg3) :=
  (exit1_of_ne m c main_arg3 (by decide)).trans <| (mid1_of m c main_arg3 (by decide)).trans <|
    (exit0_in m c 2 rfl).trans <| V3_launch m c main_arg3 (by decide) (by decide) (by decide)
theorem exit1_main_arg4 (c : Dev nD) : exit1 m c (Proc.devRef .tc main_arg4) = m ((c : Thread nD τ).loc main_arg4) :=
  (exit1_of_ne m c main_arg4 (by decide)).trans <| (mid1_of m c main_arg4 (by decide)).trans <|
    (exit0_of_ne m c main_arg4 (by decide)).trans <| V3_launch m c main_arg4 (by decide) (by decide) (by decide)
theorem exit1_main_arg5 (c : Dev nD) : exit1 m c (Proc.devRef .tc main_arg5) = m ((c : Thread nD τ).loc main_arg5) :=
  (exit1_in m c 3 rfl).trans <| (mid1_of m c main_arg5 (by decide)).trans <|
    (exit0_of_ne m c main_arg5 (by decide)).trans <| V3_launch m c main_arg5 (by decide) (by decide) (by decide)
theorem exit1_main_arg6 (c : Dev nD) : exit1 m c (Proc.devRef .tc main_arg6) = m ((c : Thread nD τ).loc main_arg6) :=
  (exit1_of_ne m c main_arg6 (by decide)).trans <| (mid1_of m c main_arg6 (by decide)).trans <|
    (exit0_of_ne m c main_arg6 (by decide)).trans <| V3_launch m c main_arg6 (by decide) (by decide) (by decide)
theorem exit1_main_arg7 (c : Dev nD) : exit1 m c (Proc.devRef .tc main_arg7) = m ((c : Thread nD τ).loc main_arg7) :=
  (exit1_in m c 5 rfl).trans <| (mid1_of m c main_arg7 (by decide)).trans <|
    (exit0_of_ne m c main_arg7 (by decide)).trans <| V3_launch m c main_arg7 (by decide) (by decide) (by decide)
theorem exit1_main_arg8 (c : Dev nD) : exit1 m c (Proc.devRef .tc main_arg8) = m ((c : Thread nD τ).loc main_arg8) :=
  (exit1_of_ne m c main_arg8 (by decide)).trans <| (mid1_of m c main_arg8 (by decide)).trans <|
    (exit0_of_ne m c main_arg8 (by decide)).trans <| V3_launch m c main_arg8 (by decide) (by decide) (by decide)

/-! ## The proof data family and the thread state -/

/-- Each launch's proof data at the contents its launch is entered from. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and the core owing
    nothing. -/
abbrev R (c : Dev nD) : sProp 𝕄 := iprop((∃ r, prngReg c r) ∗ ∃ W, owes (c : Thread nD τ) (0 : CellTallies nD τ sig Unit) W)

/-- A host stretch as a segment: its operations over the unscoped buffers from the contents `W`, `R` riding along; it
    leaves those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the end's contents, the generator register at
    some state. -/
abbrev Tend (c : Dev nD) : sProp 𝕄 := iprop(StableHlo.held (c : Thread nD τ) (Pipeline.ucRefs τ sig) (exit1 m c) ∗ ∃ r, prngReg c r)

/-! ## The launches as segments -/

set_option backward.isDefEq.respectTransparency.types false in
/-- THE FIRST LAUNCH over the thread state: entered from every unscoped buffer at `Gen.V3`, left at `exit0`. Its
    operands' arrays are split out of the unscoped buffers and put back at the exit contents; the generator register
    goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `mid1`, left at `exit1` (what the
    end reads). Its invariant is the launch's own: what the launch hands over makes it before the first grid point, and
    after the last it gives that back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (mid1 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (entry1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (out1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order: a host segment per stretch from its boundary's contents, a segment per launch. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (exit0 m)),
    .region (reg1 m) ]

/-- The program is the run of the segments: it is the chain of its six items, and so is the segments' run. -/
theorem main_run (c : Dev nD) : main (F := F) c = Pipeline.Seg.run (segs m) := by
  rw [main_chain c, Pipeline.Seg.run_eq_chain]
  rfl

set_option backward.isDefEq.respectTransparency.types false in
/-- THE RUN: every weakly fair execution of the program from memory `m` (semaphores zero) terminates, nothing
    faulting; the result buffer ends at `exit1`'s contents and every argument array as launched. -/
theorem run_all : θ_run defs (onTc (τ := τ) (main (F := F))) ⟨m, fun _ => 0, ρ⟩ (fun r => ∀ c : Dev nD,
      r.2.mem ((c.tc : Thread nD τ).loc main_v47) = exit1 m c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tend m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exit1 m c b)
    (hfin := fun c s' => by
      iintro ⟨⟨Hh, -⟩, HSI⟩
      unfold StableHlo.held
      imodintro
      iapply (pointsTo_read_all (Pipeline.ucRefs τ sig) (fun b => (((c : Thread nD τ)).1, b)) (exit1 m c) s')
      isplitl [Hh] <;> iassumption)
    (hQ := fun s h c =>
      ⟨h c _ (mem_uc main_v47 (by decide)),
        (h c _ (mem_uc main_arg0 (by decide))).trans (exit1_main_arg0 m c),
        (h c _ (mem_uc main_arg1 (by decide))).trans (exit1_main_arg1 m c),
        (h c _ (mem_uc main_arg2 (by decide))).trans (exit1_main_arg2 m c),
        (h c _ (mem_uc main_arg3 (by decide))).trans (exit1_main_arg3 m c),
        (h c _ (mem_uc main_arg4 (by decide))).trans (exit1_main_arg4 m c),
        (h c _ (mem_uc main_arg5 (by decide))).trans (exit1_main_arg5 m c),
        (h c _ (mem_uc main_arg6 (by decide))).trans (exit1_main_arg6 m c),
        (h c _ (mem_uc main_arg7 (by decide))).trans (exit1_main_arg7 m c),
        (h c _ (mem_uc main_arg8 (by decide))).trans (exit1_main_arg8 m c)⟩)

end Cert.Kernel.Hand

end
-- ==== Proof.Region0.lean ====
/-
  The first kernel launch of the program (the dense layer: one row tile per grid point), for any float
  family: what the body leaves in the output tile as a function of the four input tiles, the proof data of the
  launch, and the body's Hoare triple at every grid point.
-/
import proofs.«428788_j14774687498490_3_alg».proof.Proof.Gen.KernelIdeal.Launch
import proofs.«428788_j14774687498490_3_alg».proof.Proof.Gen.KernelIdeal.Skeleton
import proofs.«428788_j14774687498490_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: a parameter
variable (V : (c : Dev nD) → (b : Ref sig .tc) → Buf (Elt F) ((c : Thread nD τ).loc b))

/-- The tile of operand `w` that grid point `t` works on, read off the operand's array at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output tile from the four input tiles: `relu ((agg · dis) W + b) · dis`, row by row. -/
def tile0 (xagg : Vec F S5000x128 .f32) (xdis : Vec F S5000x1 .f32) (xw : Vec F S128x128 .f32) (xb : Vec F S1x128 .f32) :
    Vec F S5000x128 .f32 :=
  k0_pay1 xdis xagg xw xb

/-- The proof data of the launch on core `c`: every operand's array as found at entry; after the body each input
    tile as it was and the output tile at `tile0` of the inputs. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => tile0 (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = tile0 (blk0 V c 0 t) (blk0 V c 1 t) (blk0 V c 2 t) (blk0 V c 3 t) := by dsimp only [dat0]

/-! ## Each input's staging buffer at a grid point -/

/-- The zero offsets of a whole-tile access, as the constant function. -/
theorem zero_off : (![0, 0] : Fin 2 → ℕ) = fun _ => 0 := by
  funext a; fin_cases a <;> rfl

/-- The staging buffer of the agg window holds the point's agg tile when the body starts: the window is an input the
    body leaves as found, so fetched at the point or not it holds the tile the point's block index names. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)

/-- The same for the dis window. -/
theorem before0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)

/-- The same for the weight window, which is fetched at the first point only: at a later point the block index has
    not moved, and the buffer still holds the one tile. -/
theorem before0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)

/-- The same for the bias window, fetched at the first point only. -/
theorem before0_3 (c : Dev nD) (t : Fin cfg0.N) (d) : (dat0 V c).before 3 t d = blk0 V c 3 t :=
  ((dat0 V c).before_in_eq_fetched 3 rfl (fun _ => rfl) (fun _ _ _ => rfl)
      (fun t => by rw [after0_3]; unfold Dat.blockOf blk0; rw [A_eq0]; try rfl) t d).trans
    (by unfold Dat.fetched Dat.blockOf blk0; rw [A_eq0]; try rfl)

/-- The rectangle of the body's one store: the whole output tile. -/
abbrev rOut : Rect S5000x128 := Rect.unit (s := S5000x128) ![0, 0] S5000x128.size inb_S5000x128_S5000x128_0_0

/-- The one store covers the output tile. -/
theorem cover0 (p : Vec F S5000x128 .f32) (y : S5000x128.Idx) :
    ∃ pc ∈ ([⟨rOut, p⟩] : List (View.Piece (Elt F) S5000x128 .f32)), y ∈ pc.1.set :=
  ⟨⟨rOut, p⟩, List.mem_singleton_self _,
    View.mem_set_unit_zero (S := S5000x128) zero_off inb_S5000x128_S5000x128_0_0 y⟩

/-! ## The body's triple -/

set_option maxHeartbeats 1000000 in
/-- The kernel function on whole staging buffers, the four inputs' at contents \`xagg\`, \`xdis\`, \`xw\`, \`xb\` and the
    output's at anything, runs to the continuation with the inputs' as they were and the output's at \`tile0\` of them:
    it reads each input buffer whole, reads the output buffer (the value is dropped), and stores the one payload over
    the whole output buffer. -/
theorem sound_kernel0 (c : Dev nD) (E : Set ℕ) (i : grid0.Coords)
    (arg1 : Memref sig .tc .vmem S5000x128 .f32) (harg1 : arg1.IsWhole)
    (arg2 : Memref sig .tc .vmem S5000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (xagg : Vec F S5000x128 .f32) (xdis : Vec F S5000x1 .f32) (xw : Vec F S128x128 .f32) (xb : Vec F S1x128 .f32)
    (K : PUnit → sProp 𝕄) :
    iprop(owns (c : Thread nD τ) arg1 fullShare xagg ∗ owns (c : Thread nD τ) arg2 fullShare xdis
        ∗ owns (c : Thread nD τ) arg3 fullShare xw ∗ owns (c : Thread nD τ) arg4 fullShare xb
        ∗ (∃ d, owns (c : Thread nD τ) arg5 fullShare d)
        ∗ (iprop(owns (c : Thread nD τ) arg1 fullShare xagg ∗ owns (c : Thread nD τ) arg2 fullShare xdis
            ∗ owns (c : Thread nD τ) arg3 fullShare xw ∗ owns (c : Thread nD τ) arg4 fullShare xb
            ∗ owns (c : Thread nD τ) arg5 fullShare (tile0 xagg xdis xw xb)) -∗ K ⟨⟩))
      ⊢ wp frame (wpE (defs₀ (F := F)) Variants.none c none) E
          (cc0__dense_relu_kernel i arg1 harg1 arg2 harg2 arg3 harg3 arg4 harg4 arg5 harg5) K := by
  simp only [cc0__dense_relu_kernel_eq_skeleton]; unfold cc0__dense_relu_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _), View.canon_unit_zero (S := S5000x128) zero_off]
  unfold tile0
  simp only [View.readAt_eq_ld, View.ld_unit_zero (S := S5000x128) zero_off, View.ld_unit_zero (S := S5000x1) zero_off,
    View.ld_unit_zero (S := S128x128) zero_off, View.ld_unit_zero (S := S1x128) zero_off]

/-! ## The body obligation at a grid point -/

/-- What the body is entered with at point \`t\`: the invariant, the core's debts, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold the point's tiles, so the kernel's triple applies; the
    invariant and the debts are not touched and pass through. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's triple at every grid point of the launch. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel launch of the program (dense layer, pooling by graph and classifier, one row tile per grid
  point, two accumulators carried in scratch memory across the grid), for any float family: the accumulators after
  each grid point by recursion on the point, the result tile the last point stores, the proof data of the launch, and
  the body's Hoare triple at every grid point.
-/
import proofs.«428788_j14774687498490_3_alg».proof.Proof.Gen.KernelIdeal.Launch
import proofs.«428788_j14774687498490_3_alg».proof.Proof.Gen.KernelIdeal.Skeleton
import proofs.«428788_j14774687498490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: a parameter
variable (V : (c : Dev nD) → (b : Ref sig .tc) → Buf (Elt F) ((c : Thread nD τ).loc b))

/-- The tile of operand `w` that grid point `t` works on, read off the operand's array at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch accumulators as whole memrefs: the pooled sums and the counts. -/
abbrev scAcc : Memref sig .tc .vmem S64x128 .f32 := Memref.whole cc1_scratch0
abbrev scCnt : Memref sig .tc .vmem S1x64 .f32 := Memref.whole cc1_scratch1

/-- One grid point's update of the pooled sums: the previous sums plus (one-hot of the tile's graph ids)ᵀ times the
    tile's hidden rows `relu ((agg · dis) W + b)`. -/
def accStep (prev : Vec F S64x128 .f32) (xagg : Vec F S5000x128 .f32) (xdis : Vec F S5000x1 .f32) (xgid : Vec F S5000x1 .i32)
    (xw : Vec F S128x128 .f32) (xb : Vec F S1x128 .f32) : Vec F S64x128 .f32 :=
  k1_pay6 xagg xdis xw xb xgid prev

/-- One grid point's update of the counts: the previous counts plus the column sums of the tile's one-hot matrix. -/
def cntStep (prev : Vec F S1x64 .f32) (xgid : Vec F S5000x1 .i32) : Vec F S1x64 .f32 :=
  k1_pay1 (k1_pay5 xgid) prev

/-- The accumulators (pooled sums, counts) after grid point `n`: zero before the first point, then one update per
    point. -/
def scr1 (c : Dev nD) : (n : ℕ) → n < cfg1.N → Vec F S64x128 .f32 × Vec F S1x64 .f32
  | 0, hn => (accStep (k1_pay3 (F := F)) (blk1 V c 0 ⟨0, hn⟩) (blk1 V c 1 ⟨0, hn⟩) (blk1 V c 2 ⟨0, hn⟩) (blk1 V c 3 ⟨0, hn⟩) (blk1 V c 4 ⟨0, hn⟩),
      cntStep (k1_pay4 (F := F)) (blk1 V c 2 ⟨0, hn⟩))
  | n + 1, hn => (accStep (scr1 c n (Nat.lt_of_succ_lt hn)).1 (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
      cntStep (scr1 c n (Nat.lt_of_succ_lt hn)).2 (blk1 V c 2 ⟨n + 1, hn⟩))

/-- The result tile as computed from the accumulators after point `t` (stored by the body at the last point only):
    `(sums / max counts 1) Wc + bc`. -/
def logits1 (c : Dev nD) (t : Fin cfg1.N) : Vec F S64x8 .f32 :=
  k1_pay2 (scr1 V c t.val t.isLt).2 (scr1 V c t.val t.isLt).1 (blk1 V c 5 t) (blk1 V c 6 t)

/-- The launch's invariant before position `n`: before the first point whatever the launch hands over; afterwards the
    two accumulators at what the point before left, the other scoped buffers at anything, the generator register at
    some state. -/
def PhiS1 (c : Dev nD) : (n : ℕ) → n ≤ cfg1.N → sProp 𝕄
  | 0, _ => Pipeline.ΦA spec1 c
  | n + 1, hn => iprop(owns (c : Thread nD τ) scAcc fullShare (scr1 V c n hn).1
      ∗ owns (c : Thread nD τ) scCnt fullShare (scr1 V c n hn).2
      ∗ (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

/-- The proof data of the launch on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => logits1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = logits1 V c t := by dsimp only [dat1]

/-! ## The conditions of the body's two conditionals, over the grid -/

/-- The condition of the body's first conditional (both accumulators are zeroed under it), from the grid coordinate. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The condition of the second (the result tile is computed and stored under it). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-- The seven operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where the second condition fails the result window is idle and is not written back; -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- where it holds the window is live. -/
theorem liveAt1_7 : ∀ t : Fin cfg1.N, cond1_1 (grid1.coords t) → cfg1.idle 7 (grid1.coords t) = false := by decide +kernel

/-- The offsets of every load and store of the body: zero along both axes. -/
theorem offs1_zero : (![0, 0] : Fin 2 → Nat) = fun _ => 0 := funext fun a => by fin_cases a <;> rfl

/-- A store through the whole-shape rectangle at zero offsets, the last of the stores into a buffer, leaves its payload
    there, whatever the buffer held and whatever was stored before. -/
theorem read_writes_unit1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The body on any whole memrefs, one triple per control case

Each load reads a whole buffer, each store overwrites a whole buffer: so what a buffer holds after the body is the
payload of the last store into it, over the contents the loads found. -/

set_option maxHeartbeats 1000000 in
/-- Points 1..8 (neither conditional taken): from the accumulators at `a`, `b` the body leaves them at one update each. -/
theorem run_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : ¬cond1_0 i) (hc1 : ¬cond1_1 i) (x0 : Vec F S5000x128 .f32) (x1 : Vec F S5000x1 .f32) (x2 : Vec F S5000x1 .i32) (x3 : Vec F S128x128 .f32) (x4 : Vec F S1x128 .f32)
    (a : Vec F S64x128 .f32) (b : Vec F S1x64 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg9 fullShare a ∗ owns (c : Thread nD τ) arg10 fullShare b
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg9 fullShare (accStep a x0 x1 x2 x3 x4) ∗ owns (c : Thread nD τ) arg10 fullShare (cntStep b x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfa; obtain rfl := harg10.eq_unread hfb
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [HA]
  · iexists _; isplitr
    swap; · iexact HA
    ipureintro
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero]
    rfl
  iexists _; isplitr
  swap; · iexact HB
  ipureintro
  rw [read_writes_unit1 _ _ offs1_zero]
  sl_unfold_words
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero]
  rfl

set_option maxHeartbeats 1000000 in
/-- Point 0 (the first conditional taken): whatever the accumulators held, the body zeroes them and leaves one update
    of the zero accumulators each. -/
theorem run_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : cond1_0 i) (hc1 : ¬cond1_1 i) (x0 : Vec F S5000x128 .f32) (x1 : Vec F S5000x1 .f32) (x2 : Vec F S5000x1 .i32) (x3 : Vec F S128x128 .f32) (x4 : Vec F S1x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ a, owns (c : Thread nD τ) arg9 fullShare a) ∗ (∃ b, owns (c : Thread nD τ) arg10 fullShare b)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg9 fullShare (accStep (k1_pay3 (F := F)) x0 x1 x2 x3 x4) ∗ owns (c : Thread nD τ) arg10 fullShare (cntStep (k1_pay4 (F := F)) x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%a, %fa, -, HA⟩, ⟨%b, %fb, -, HB⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [HA]
  · iexists _; isplitr
    swap; · iexact HA
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  iexists _; isplitr
  swap; · iexact HB
  ipureintro
  sl_unfold_words
  rw [read_writes_unit1 _ _ offs1_zero]
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
  rfl

set_option maxHeartbeats 1000000 in
/-- Point 9 (the second conditional taken): one update of each accumulator, then the result tile computed from the
    updated accumulators and the classifier's weights and stored into the result window, whatever that held. -/
theorem run_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S64x8 .f32) (harg8 : arg8.IsWhole) (arg9 : Memref sig .tc .vmem S64x128 .f32) (harg9 : arg9.IsWhole) (arg10 : Memref sig .tc .vmem S1x64 .f32) (harg10 : arg10.IsWhole)
    (hc0 : ¬cond1_0 i) (hc1 : cond1_1 i) (x0 : Vec F S5000x128 .f32) (x1 : Vec F S5000x1 .f32) (x2 : Vec F S5000x1 .i32) (x3 : Vec F S128x128 .f32) (x4 : Vec F S1x128 .f32) (x5 : Vec F S128x8 .f32) (x6 : Vec F S1x8 .f32)
    (a : Vec F S64x128 .f32) (b : Vec F S1x64 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare a ∗ owns (c : Thread nD τ) arg10 fullShare b
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (k1_pay2 (cntStep b x2) (accStep a x0 x1 x2 x3 x4) x5 x6)
            ∗ owns (c : Thread nD τ) arg9 fullShare (accStep a x0 x1 x2 x3 x4) ∗ owns (c : Thread nD τ) arg10 fullShare (cntStep b x2)) -∗ K ⟨⟩))
      ⊢ wp frame (wpE (defs₀ (F := F)) Variants.none c none) E (cc1__dense_pool_classify_kernel i arg1 harg1 arg2 harg2 arg3 harg3 arg4 harg4 arg5 harg5 arg6 harg6 arg7 harg7 arg8 harg8 arg9 harg9 arg10 harg10) K := by
  simp only [cc1__dense_pool_classify_kernel_eq_skeleton]; unfold cc1__dense_pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hf5; obtain rfl := harg7.eq_unread hf6
  obtain rfl := harg9.eq_unread hfa; obtain rfl := harg10.eq_unread hfb
  sl_exec (disch := first | exact hc0 | exact hc1)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    swap; · iexact H7
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  isplitl [HA]
  · iexists _; isplitr
    swap; · iexact HA
    ipureintro
    sl_unfold_words
    rw [read_writes_unit1 _ _ offs1_zero]
    simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
    rfl
  iexists _; isplitr
  swap; · iexact HB
  ipureintro
  sl_unfold_words
  rw [read_writes_unit1 _ _ offs1_zero]
  simp only [View.readAt_eq_ld, harg1.read_unread, harg2.read_unread, harg3.read_unread, harg4.read_unread, harg5.read_unread, harg6.read_unread, harg7.read_unread, harg9.read_unread, harg10.read_unread,
      View.ld_unit_zero (S := S5000x128) offs1_zero, View.ld_unit_zero (S := S5000x1) offs1_zero, View.ld_unit_zero (S := S128x128) offs1_zero, View.ld_unit_zero (S := S1x128) offs1_zero,
      View.ld_unit_zero (S := S128x8) offs1_zero, View.ld_unit_zero (S := S1x8) offs1_zero, View.ld_unit_zero (S := S64x128) offs1_zero, View.ld_unit_zero (S := S1x64) offs1_zero,
      View.readCov_unit_zero (S := S64x128) _ offs1_zero, View.readCov_unit_zero (S := S1x64) _ offs1_zero]
  rfl

/-! ## The invariant's cases -/

/-- The invariant after a point, with the two accumulators at given contents. -/
def PhiT1 (c : Dev nD) (a : Vec F S64x128 .f32) (b : Vec F S1x64 .f32) : sProp 𝕄 :=
  iprop(owns (c : Thread nD τ) scAcc fullShare a
      ∗ owns (c : Thread nD τ) scCnt fullShare b
      ∗ (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiT1 c (scr1 V c n hn).1 (scr1 V c n hn).2 := rfl

theorem PhiS1_pos (c : Dev nD) (n : ℕ) (h : n ≤ cfg1.N) (hz : n ≠ 0) :
    PhiS1 V c n h = PhiT1 c (scr1 V c (n - 1) (by omega)).1 (scr1 V c (n - 1) (by omega)).2 := by
  cases n with
  | zero => exact absurd rfl hz
  | succ n => rfl

/-- What the launch hands over, with the two accumulators as whole memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ a, owns (c : Thread nD τ) scAcc fullShare a)
      ∗ (∃ b, owns (c : Thread nD τ) scCnt fullShare b)) ∗ (∃ r, prngReg c r)) := by
  unfold Pipeline.ΦA; rw [scopedRest1_eq]; simp only [scAcc, scCnt, owns_whole]; try rfl

/-! ## The launch at a point: the windows' current buffers, what they hold, the accumulators -/

/-- Each window's current staging memref at point `t`, as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x8 .f32 := win1_7.stage (cfg1.slots t 7)
abbrev hs1_7 (t : Fin cfg1.N) : (ms1_7 t).IsWhole := hstage1_7 ((cfg1.slots t 7).cast nbuf1_7)

/-- What the body leaves in an operand window's buffer is the tile it found there. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]

/-- Each operand window's current buffer holds its tile at every point, fetched there or not: an unfetched window's
    block index has not moved since the point before, and the body left the tile in place. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A_eq1]; try rfl) t d).trans
    (by unfold Dat.fetched Dat.blockOf blk1; rw [A_eq1]; try rfl)

/-- The accumulators after the first point: one update of the zero accumulators. -/
theorem scr1_zero (c : Dev nD) (t : Fin cfg1.N) (hz : t.val = 0) :
    scr1 V c t.val t.isLt = (accStep (k1_pay3 (F := F)) (blk1 V c 0 t) (blk1 V c 1 t) (blk1 V c 2 t) (blk1 V c 3 t) (blk1 V c 4 t),
      cntStep (k1_pay4 (F := F)) (blk1 V c 2 t)) := by
  obtain ⟨n, hn⟩ := t
  cases n with
  | zero => rfl
  | succ n => exact absurd hz (Nat.succ_ne_zero n)

/-- The accumulators after a later point: one update of what the point before left. -/
theorem scr1_pos (c : Dev nD) (t : Fin cfg1.N) (hz : t.val ≠ 0) :
    scr1 V c t.val t.isLt = (accStep (scr1 V c (t.val - 1) (Nat.lt_of_le_of_lt (Nat.sub_le _ _) t.isLt)).1 (blk1 V c 0 t) (blk1 V c 1 t) (blk1 V c 2 t) (blk1 V c 3 t) (blk1 V c 4 t),
      cntStep (scr1 V c (t.val - 1) (Nat.lt_of_le_of_lt (Nat.sub_le _ _) t.isLt)).2 (blk1 V c 2 t)) := by
  obtain ⟨n, hn⟩ := t
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation at a point -/

/-- What the body is handed at point `t`: the invariant, what the core owes, the windows' current buffers. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the operand windows hold their tiles; the point's number decides the control case; the
    invariant hands the body the accumulators at what the point before left (at anything before the first point) and
    takes them back at this point's; the result window is handed back untouched except at the last point, where it
    holds the result tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [scr1_zero V c t h0]; dsimp only
    rw [PhiS1_castSucc V c t, PhiS1_zero V c _ _ h0, PhiA1_eq]
    unfold PhiT1
    iintro ⟨⟨⟨R0, R1, R2, R3, R4, R5, R6, R7, HA, HB⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, HA, HB⟩
    isplitl [HA HB R0 R1 R2 R3 R4 R5 R6 R7 Hg]
    · isplitl [HA]; · iexact HA
      isplitl [HB]; · iexact HB
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond1_0 (grid1.coords t) := fun h => h0 ((hcond1_0 t).mp h)
    by_cases h9 : t.val = 9
    · have hc1 : cond1_1 (grid1.coords t) := (hcond1_1 t).mpr h9
      rw [show (dat1 V c).leavesExact 7 t = owns (c : Thread nD τ) (ms1_7 t) fullShare ((dat1 V c).after 7 t) from by
        unfold Dat.leavesExact; rw [liveAt1_7 t hc1], after1_7]
      unfold logits1
      rw [scr1_pos V c t h0]; dsimp only
      rw [PhiS1_castSucc V c t, PhiS1_pos V c _ _ h0]
      unfold PhiT1
      iintro ⟨⟨HA, HB, R0, R1, R2, R3, R4, R5, R6, R7, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) (blk1 V c 5 t) (blk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HB]; · iexact HB
      iintro ⟨H0, H1, H2, H3, H4, H5, H6, H7, HA, HB⟩
      isplitl [HA HB R0 R1 R2 R3 R4 R5 R6 R7 Hg]
      · isplitl [HA]; · iexact HA
        isplitl [HB]; · iexact HB
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h9 ((hcond1_1 t).mp h)
      rw [Dat.leavesExact_idle (dat1 V c) 7 t (idleAt1_7 t hc1) (noFlush1_7 t hc1)]
      rw [scr1_pos V c t h0]; dsimp only
      rw [PhiS1_castSucc V c t, PhiS1_pos V c _ _ h0]
      unfold PhiT1
      iintro ⟨⟨HA, HB, R0, R1, R2, R3, R4, R5, R6, R7, Hg⟩, Ho, ⟨%d0, H0⟩, ⟨%d1, H1⟩, ⟨%d2, H2⟩, ⟨%d3, H3⟩, ⟨%d4, H4⟩, ⟨%d5, H5⟩, ⟨%d6, H6⟩, H7⟩
      iapply (run_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scAcc (Memref.isWhole_whole _) scCnt (Memref.isWhole_whole _) hc0 hc1 (blk1 V c 0 t) (blk1 V c 1 t) (blk1 V c 2 t) (blk1 V c 3 t) (blk1 V c 4 t) _ _ Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB R0 R1 R2 R3 R4 R5 R6 R7 Hg]
      · isplitl [HA]; · iexact HA
        isplitl [HB]; · iexact HB
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's triple at every grid point of the launch. -/
theorem body_obligation1 (c : Dev nD) :
    BodyObligation (dat1 (F := F) V c) (defs₀ (F := F)) Variants.none () Set.univ := fun t => by
  rw [bigSep_W1, bigSep_W1]
  exact sound_body1 V c t

/-! ## Into and out of the invariant -/

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiT1
  iintro ⟨HA, HC, H0, H1, H2, H3, H4, H5, H6, H7, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    iexists _; iexact HC
  iexact Hg

/-- After the last point the invariant gives back what the launch handed over (the accumulators' contents forgotten). -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.Walk.lean ====
/-
  The whole program as a walk through its six items (three host stretches, the first kernel launch, a host
  stretch, the second kernel launch), for any float family: the contents of the core's buffers at each boundary as a
  fold from the launch memory, the two launches as segments over those contents, and the run — every weakly fair
  execution terminates with the result buffer at what the second launch writes back and the arguments unchanged.
-/
import proofs.«428788_j14774687498490_3_alg».proof.Proof.Region0
import proofs.«428788_j14774687498490_3_alg».proof.Proof.Region1
import proofs.«428788_j14774687498490_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first launch finds in the core's buffers: the launch memory after the first three host stretches
    (the generated fold `Gen.V3`), read at the TensorCore's references. -/
abbrev entry0 (c : Dev nD) (b : Ref sig .tc) : Buf (Elt F) ((c : Thread nD τ).loc b) := Gen.V3 m c b

/-- After the first launch: its operands' arrays at what the pipeline leaves (inputs as entered, the output at
    its write-backs folded), every other buffer as entered. -/
def exit0 (c : Dev nD) : Valuation τ sig (Elt F) :=
  Pipeline.withArrays spec0 c (Gen.V3 m c) fun w => (dat0 (entry0 m) c).arrAt w cfg0.N

/-- After the fourth host stretch: what the second launch finds. -/
abbrev mid1 (c : Dev nD) : Valuation τ sig (Elt F) := StableHlo.after hostOps1 (exit0 m c)
abbrev entry1 (c : Dev nD) (b : Ref sig .tc) : Buf (Elt F) ((c : Thread nD τ).loc b) := mid1 m c b

/-- After the second launch: the end of the program. -/
def exit1 (c : Dev nD) : Valuation τ sig (Elt F) :=
  Pipeline.withArrays spec1 c (mid1 m c) fun w => (dat1 (entry1 m) c).arrAt w cfg1.N

/-! ## The boundary contents at a launch's operands and elsewhere -/

/-- After the first launch each of its operands' arrays holds what the pipeline leaves there. -/
theorem exit0_arr (c : Dev nD) (w : Fin cfg0.W) :
    exit0 m c (Proc.devRef .tc (Pipeline.arrRef spec0 w)) = (dat0 (entry0 m) c).arrAt w cfg0.N := by
  unfold exit0; exact Pipeline.withArrays_arr spec0 launch0.win.arr_inj c _ _ w

/-- After the second launch each of its operands' arrays holds what the pipeline leaves there. -/
theorem exit1_arr (c : Dev nD) (w : Fin cfg1.W) :
    exit1 m c (Proc.devRef .tc (Pipeline.arrRef spec1 w)) = (dat1 (entry1 m) c).arrAt w cfg1.N := by
  unfold exit1; exact Pipeline.withArrays_arr spec1 launch1.win.arr_inj c _ _ w

/-- The result buffer at the end is what the second launch's result window wrote back. -/
theorem exit1_result (c : Dev nD) :
    exit1 m c (Proc.devRef .tc main_v47) = (dat1 (entry1 m) c).arrAt 7 cfg1.N :=
  exit1_arr m c 7

/-- The first launch's output array, as the fourth host stretch finds it, is what its output window wrote back. -/
theorem exit0_result (c : Dev nD) :
    exit0 m c (Proc.devRef .tc main_v32) = (dat0 (entry0 m) c).arrAt 4 cfg0.N :=
  exit0_arr m c 4

/-- A buffer that is no operand array of the first launch is, after it, as entered. -/
theorem exit0_of_ne (c : Dev nD) (b : Ref sig .tc) (hb : ∀ w, Pipeline.arrRef spec0 w ≠ b) :
    exit0 m c (Proc.devRef .tc b) = Gen.V3 m c (Proc.devRef .tc b) := by
  unfold exit0; exact Pipeline.withArrays_of_ne spec0 c _ _ b hb

/-- A buffer that is no operand array of the second launch is, after it, as entered. -/
theorem exit1_of_ne (c : Dev nD) (b : Ref sig .tc) (hb : ∀ w, Pipeline.arrRef spec1 w ≠ b) :
    exit1 m c (Proc.devRef .tc b) = mid1 m c (Proc.devRef .tc b) := by
  unfold exit1; exact Pipeline.withArrays_of_ne spec1 c _ _ b hb

/-- The exit contents of each launch read at the TensorCore's references. -/
abbrev out0 (c : Dev nD) (b : Ref sig .tc) : Buf (Elt F) ((c : Thread nD τ).loc b) := exit0 m c b
abbrev out1 (c : Dev nD) (b : Ref sig .tc) : Buf (Elt F) ((c : Thread nD τ).loc b) := exit1 m c b

theorem hF0 (c : Dev nD) (w : Fin cfg0.W) : (dat0 (entry0 m) c).arrAt w cfg0.N = out0 m c (Pipeline.arrRef spec0 w) :=
  (exit0_arr m c w).symm
theorem hrest0 (c : Dev nD) : ∀ b, b ∉ Finset.univ.image (Pipeline.arrRef spec0) → out0 m c b = entry0 m c b :=
  fun b hb => exit0_of_ne m c b fun w e => hb (Finset.mem_image.mpr ⟨w, Finset.mem_univ _, e⟩)
theorem hF1 (c : Dev nD) (w : Fin cfg1.W) : (dat1 (entry1 m) c).arrAt w cfg1.N = out1 m c (Pipeline.arrRef spec1 w) :=
  (exit1_arr m c w).symm
theorem hrest1 (c : Dev nD) : ∀ b, b ∉ Finset.univ.image (Pipeline.arrRef spec1) → out1 m c b = entry1 m c b :=
  fun b hb => exit1_of_ne m c b fun w e => hb (Finset.mem_image.mpr ⟨w, Finset.mem_univ _, e⟩)

/-! ## The arguments end as launched

No host stretch writes an argument, and a launch either does not touch it or reads it through an input window, whose
array the pipeline leaves as entered: the fold at an argument's buffer walks back to the launch memory. -/

/-- A buffer none of the first three host stretches writes is, when the first launch is entered, as launched. -/
theorem V3_launch (c : Dev nD) (r : Ref sig .tc) (h2 : r ∉ hostOps0_2_W) (h1 : r ∉ hostOps0_1_W) (h0 : r ∉ hostOps0_W) :
    Gen.V3 m c (Proc.devRef .tc r) = m ((c : Thread nD τ).loc r) :=
  (Gen.V3_of m c r h2).trans <| (Gen.V2_of m c r h1).trans <| (Gen.V1_of m c r h0).trans rfl

/-- A buffer the fourth host stretch does not write is, when the second launch is entered, as the first left it. -/
theorem mid1_of (c : Dev nD) (r : Ref sig .tc) (h : r ∉ hostOps1_W) :
    mid1 m c (Proc.devRef .tc r) = exit0 m c (Proc.devRef .tc r) :=
  StableHlo.after_of_writes_sub hostOps1 _ hostOps1_writes h

/-- An input window's array of the first launch is, after it, as entered. -/
theorem exit0_in (c : Dev nD) (w : Fin cfg0.W) (hin : (cfg0.win w).isOut = false) :
    exit0 m c (Proc.devRef .tc (Pipeline.arrRef spec0 w)) = Gen.V3 m c (Proc.devRef .tc (Pipeline.arrRef spec0 w)) :=
  (exit0_arr m c w).trans (((dat0 (entry0 m) c).arrAt_in w hin _).trans (A_eq0 (entry0 m) c w))

/-- An input window's array of the second launch is, after it, as entered. -/
theorem exit1_in (c : Dev nD) (w : Fin cfg1.W) (hin : (cfg1.win w).isOut = false) :
    exit1 m c (Proc.devRef .tc (Pipeline.arrRef spec1 w)) = mid1 m c (Proc.devRef .tc (Pipeline.arrRef spec1 w)) :=
  (exit1_arr m c w).trans (((dat1 (entry1 m) c).arrAt_in w hin _).trans (A_eq1 (entry1 m) c w))

theorem exit1_main_arg0 (c : Dev nD) : exit1 m c (Proc.devRef .tc main_arg0) = m ((c : Thread nD τ).loc main_arg0) :=
  (exit1_of_ne m c main_arg0 (by decide)).trans <| (mid1_of m c main_arg0 (by decide)).trans <|
    (exit0_of_ne m c main_arg0 (by decide)).trans <| V3_launch m c main_arg0 (by decide) (by decide) (by decide)
theorem exit1_main_arg1 (c : Dev nD) : exit1 m c (Proc.devRef .tc main_arg1) = m ((c : Thread nD τ).loc main_arg1) :=
  (exit1_of_ne m c main_arg1 (by decide)).trans <| (mid1_of m c main_arg1 (by decide)).trans <|
    (exit0_of_ne m c main_arg1 (by decide)).trans <| V3_launch m c main_arg1 (by decide) (by decide) (by decide)
theorem exit1_main_arg2 (c : Dev nD) : exit1 m c (Proc.devRef .tc main_arg2) = m ((c : Thread nD τ).loc main_arg2) :=
  (exit1_of_ne m c main_arg2 (by decide)).trans <| (mid1_of m c main_arg2 (by decide)).trans <|
    (exit0_of_ne m c main_arg2 (by decide)).trans <| V3_launch m c main_arg2 (by decide) (by decide) (by decide)
theorem exit1_main_arg3 (c : Dev nD) : exit1 m c (Proc.devRef .tc main_arg3) = m ((c : Thread nD τ).loc main_arg3) :=
  (exit1_of_ne m c main_arg3 (by decide)).trans <| (mid1_of m c main_arg3 (by decide)).trans <|
    (exit0_in m c 2 rfl).trans <| V3_launch m c main_arg3 (by decide) (by decide) (by decide)
theorem exit1_main_arg4 (c : Dev nD) : exit1 m c (Proc.devRef .tc main_arg4) = m ((c : Thread nD τ).loc main_arg4) :=
  (exit1_of_ne m c main_arg4 (by decide)).trans <| (mid1_of m c main_arg4 (by decide)).trans <|
    (exit0_of_ne m c main_arg4 (by decide)).trans <| V3_launch m c main_arg4 (by decide) (by decide) (by decide)
theorem exit1_main_arg5 (c : Dev nD) : exit1 m c (Proc.devRef .tc main_arg5) = m ((c : Thread nD τ).loc main_arg5) :=
  (exit1_in m c 3 rfl).trans <| (mid1_of m c main_arg5 (by decide)).trans <|
    (exit0_of_ne m c main_arg5 (by decide)).trans <| V3_launch m c main_arg5 (by decide) (by decide) (by decide)
theorem exit1_main_arg6 (c : Dev nD) : exit1 m c (Proc.devRef .tc main_arg6) = m ((c : Thread nD τ).loc main_arg6) :=
  (exit1_of_ne m c main_arg6 (by decide)).trans <| (mid1_of m c main_arg6 (by decide)).trans <|
    (exit0_of_ne m c main_arg6 (by decide)).trans <| V3_launch m c main_arg6 (by decide) (by decide) (by decide)
theorem exit1_main_arg7 (c : Dev nD) : exit1 m c (Proc.devRef .tc main_arg7) = m ((c : Thread nD τ).loc main_arg7) :=
  (exit1_in m c 5 rfl).trans <| (mid1_of m c main_arg7 (by decide)).trans <|
    (exit0_of_ne m c main_arg7 (by decide)).trans <| V3_launch m c main_arg7 (by decide) (by decide) (by decide)
theorem exit1_main_arg8 (c : Dev nD) : exit1 m c (Proc.devRef .tc main_arg8) = m ((c : Thread nD τ).loc main_arg8) :=
  (exit1_of_ne m c main_arg8 (by decide)).trans <| (mid1_of m c main_arg8 (by decide)).trans <|
    (exit0_of_ne m c main_arg8 (by decide)).trans <| V3_launch m c main_arg8 (by decide) (by decide) (by decide)

/-! ## The proof data family and the thread state -/

/-- Each launch's proof data at the contents its launch is entered from. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and the core owing
    nothing. -/
abbrev R (c : Dev nD) : sProp 𝕄 := iprop((∃ r, prngReg c r) ∗ ∃ W, owes (c : Thread nD τ) (0 : CellTallies nD τ sig Unit) W)

/-- A host stretch as a segment: its operations over the unscoped buffers from the contents `W`, `R` riding along; it
    leaves those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the end's contents, the generator register at
    some state. -/
abbrev Tend (c : Dev nD) : sProp 𝕄 := iprop(StableHlo.held (c : Thread nD τ) (Pipeline.ucRefs τ sig) (exit1 m c) ∗ ∃ r, prngReg c r)

/-! ## The launches as segments -/

set_option backward.isDefEq.respectTransparency.types false in
/-- THE FIRST LAUNCH over the thread state: entered from every unscoped buffer at `Gen.V3`, left at `exit0`. Its
    operands' arrays are split out of the unscoped buffers and put back at the exit contents; the generator register
    goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `mid1`, left at `exit1` (what the
    end reads). Its invariant is the launch's own: what the launch hands over makes it before the first grid point, and
    after the last it gives that back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (mid1 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (entry1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (out1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order: a host segment per stretch from its boundary's contents, a segment per launch. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (exit0 m)),
    .region (reg1 m) ]

/-- The program is the run of the segments: it is the chain of its six items, and so is the segments' run. -/
theorem main_run (c : Dev nD) : main (F := F) c = Pipeline.Seg.run (segs m) := by
  rw [main_chain c, Pipeline.Seg.run_eq_chain]
  rfl

set_option backward.isDefEq.respectTransparency.types false in
/-- THE RUN: every weakly fair execution of the program from memory `m` (semaphores zero) terminates, nothing
    faulting; the result buffer ends at `exit1`'s contents and every argument array as launched. -/
theorem run_all : θ_run defs (onTc (τ := τ) (main (F := F))) ⟨m, fun _ => 0, ρ⟩ (fun r => ∀ c : Dev nD,
      r.2.mem ((c.tc : Thread nD τ).loc main_v47) = exit1 m c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tend m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exit1 m c b)
    (hfin := fun c s' => by
      iintro ⟨⟨Hh, -⟩, HSI⟩
      unfold StableHlo.held
      imodintro
      iapply (pointsTo_read_all (Pipeline.ucRefs τ sig) (fun b => (((c : Thread nD τ)).1, b)) (exit1 m c) s')
      isplitl [Hh] <;> iassumption)
    (hQ := fun s h c =>
      ⟨h c _ (mem_uc main_v47 (by decide)),
        (h c _ (mem_uc main_arg0 (by decide))).trans (exit1_main_arg0 m c),
        (h c _ (mem_uc main_arg1 (by decide))).trans (exit1_main_arg1 m c),
        (h c _ (mem_uc main_arg2 (by decide))).trans (exit1_main_arg2 m c),
        (h c _ (mem_uc main_arg3 (by decide))).trans (exit1_main_arg3 m c),
        (h c _ (mem_uc main_arg4 (by decide))).trans (exit1_main_arg4 m c),
        (h c _ (mem_uc main_arg5 (by decide))).trans (exit1_main_arg5 m c),
        (h c _ (mem_uc main_arg6 (by decide))).trans (exit1_main_arg6 m c),
        (h c _ (mem_uc main_arg7 (by decide))).trans (exit1_main_arg7 m c),
        (h c _ (mem_uc main_arg8 (by decide))).trans (exit1_main_arg8 m c)⟩)

end Cert.KernelIdeal.Hand

end
-- ==== Proof.IndexFacts.lean ====
/-
  The indexed host operations of the two programs read at coordinates: which element a row gather reads (the start
  index of the row, read signed and clamped into the table), which element a row scatter-add lands on (the index word
  of the update's row, read signed; outside the table the update is dropped), and the wrap of a non-negative index.
-/
import proofs.«428788_j14774687498490_3_alg».proof.Proof.Gen.KernelIdeal
import proofs.«428788_j14774687498490_3_alg».proof.Proof.Gen.ReferenceIdeal
import Idealize.ShloMosaic.Lib.ValueIdx
import Idealize.ShloMosaic.PureOps.Ideal

noncomputable section

namespace Cert.Proof.Index

open Idealize.ShloMosaic Idealize.ShloMosaic.ValueIdx

/-! ## The two programs' dimension numbers are the same records -/

theorem scatterRows_eq : Cert.KernelIdeal.scatter_S50000x128_S1600000x1_S1600000x128_1_0_0_1 = Cert.ReferenceIdeal.scatter_S50000x128_S1600000x1_S1600000x128_1_0_0_1 := rfl
theorem gatherRows_eq : Cert.KernelIdeal.gather_S50000x128_S1600000x1_S1600000x128_1_0_n_n_0_1_1128 = Cert.ReferenceIdeal.gather_S50000x128_S1600000x1_S1600000x128_1_0_n_n_0_1_1128 := rfl

/-! ## Gathers -/

/-- The clamped start: an index word read signed, negative to 0, then at most 49999. -/
def clampRow (v : BitVec 32) : Fin 50000 := ⟨min v.toInt.toNat 49999, by omega⟩

/-- A row gather of a [50000,128] table at a column of 1600000 start indices: row `e` of the result is the table's
    row at the clamped start index of `e`. -/
theorem gatherRows_apply {α : Type} (x : Cert.ReferenceIdeal.S50000x128.Idx → α) (idx : IVec Cert.ReferenceIdeal.S1600000x1 32)
    (e : Fin 1600000) (k : Fin 128) :
    Host.gather Cert.ReferenceIdeal.gather_S50000x128_S1600000x1_S1600000x128_1_0_n_n_0_1_1128 x idx (ix2 e k) = x (ix2 (clampRow (idx (ix2 e 0))) k) := by
  unfold Host.gather
  congr 1
  funext a
  refine Fin.ext ?_
  match a with
  | ⟨0, _⟩ =>
    show Cert.ReferenceIdeal.gather_S50000x128_S1600000x1_S1600000x128_1_0_n_n_0_1_1128.start (ix2 e k) idx 0
      + Cert.ReferenceIdeal.gather_S50000x128_S1600000x1_S1600000x128_1_0_n_n_0_1_1128.batchCoord (ix2 e k) 0
      + Cert.ReferenceIdeal.gather_S50000x128_S1600000x1_S1600000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S50000x128_S1600000x1_S1600000x128_1_0_n_n_0_1_1128.startIndexMap from List.mem_singleton.mpr rfl)]
    have hsi : Cert.ReferenceIdeal.gather_S50000x128_S1600000x1_S1600000x128_1_0_n_n_0_1_1128.siIdx (ix2 e k)
        ⟨List.idxOf (0 : Fin 2) Cert.ReferenceIdeal.gather_S50000x128_S1600000x1_S1600000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show Cert.ReferenceIdeal.gather_S50000x128_S1600000x1_S1600000x128_1_0_n_n_0_1_1128.start (ix2 e k) idx 1
      + Cert.ReferenceIdeal.gather_S50000x128_S1600000x1_S1600000x128_1_0_n_n_0_1_1128.batchCoord (ix2 e k) 1
      + Cert.ReferenceIdeal.gather_S50000x128_S1600000x1_S1600000x128_1_0_n_n_0_1_1128.offCoord (ix2 e k) 1 = _
    rw [GatherDims.batchCoord_eq_zero _ _ _ List.not_mem_nil]
    have hs : Cert.ReferenceIdeal.gather_S50000x128_S1600000x1_S1600000x128_1_0_n_n_0_1_1128.start (ix2 e k) idx 1 = 0 := by
      unfold GatherDims.start
      rw [dif_neg (show (1 : Fin 2) ∉ Cert.ReferenceIdeal.gather_S50000x128_S1600000x1_S1600000x128_1_0_n_n_0_1_1128.startIndexMap by decide)]
    rw [hs]
    simp only [Nat.add_zero, Nat.zero_add]
    rfl

/-- The same gather of a flat [50000] table. -/
theorem gatherFlat_apply {α : Type} (x : Cert.ReferenceIdeal.S50000.Idx → α) (idx : IVec Cert.ReferenceIdeal.S1600000x1 32)
    (e : Fin 1600000) :
    Host.gather Cert.ReferenceIdeal.gather_S50000_S1600000x1_S1600000_n_0_n_n_0_1_1 x idx (ix1 e) = x (ix1 (clampRow (idx (ix2 e 0)))) := by
  unfold Host.gather
  congr 1
  funext a
  refine Fin.ext ?_
  match a with
  | ⟨0, _⟩ =>
    show Cert.ReferenceIdeal.gather_S50000_S1600000x1_S1600000_n_0_n_n_0_1_1.start (ix1 e) idx 0
      + Cert.ReferenceIdeal.gather_S50000_S1600000x1_S1600000_n_0_n_n_0_1_1.batchCoord (ix1 e) 0
      + Cert.ReferenceIdeal.gather_S50000_S1600000x1_S1600000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ Cert.ReferenceIdeal.gather_S50000_S1600000x1_S1600000_n_0_n_n_0_1_1.startIndexMap from List.mem_singleton.mpr rfl)]
    have hsi : Cert.ReferenceIdeal.gather_S50000_S1600000x1_S1600000_n_0_n_n_0_1_1.siIdx (ix1 e)
        ⟨List.idxOf (0 : Fin 1) Cert.ReferenceIdeal.gather_S50000_S1600000x1_S1600000_n_0_n_n_0_1_1.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## Scatters -/

/-- A scatter's update lands on `r` exactly when start plus window coordinate is `r`'s coordinate on every axis. -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  by_cases h : ∀ a, 0 ≤ d.start j idx a + d.window j a ∧ d.start j idx a + d.window j a < s.size a
  · rw [dif_pos h, Option.some.injEq]
    constructor
    · intro heq a
      have h1 := congrArg Fin.val (congrFun heq a)
      have h2 := (h a).1
      simp only at h1
      omega
    · intro hall
      funext a
      refine Fin.ext ?_
      have h1 := hall a
      simp only
      omega
  · rw [dif_neg h]
    constructor
    · intro h'; cases h'
    · intro hall
      exfalso; apply h; intro a
      rw [hall a]
      exact ⟨Int.natCast_nonneg _, Int.ofNat_lt.2 (r a).isLt⟩

/-- The rows scatter into [50000,128]: update `(e, k)` lands on `(n, k')` exactly when the index word of row `e`, read
    signed, is `n` and `k = k'`. -/
theorem scatterRows_lands (idx : IVec Cert.ReferenceIdeal.S1600000x1 32) (e : Fin 1600000) (k : Fin 128) (n : Fin 50000) (k' : Fin 128) :
    Cert.ReferenceIdeal.scatter_S50000x128_S1600000x1_S1600000x128_1_0_0_1.resultIdx? (ix2 e k) idx = some (ix2 n k') ↔ ((idx (ix2 e 0)).toInt = (n.val : Int) ∧ k = k') := by
  rw [resultIdx?_eq_some_iff]
  have hs0 : Cert.ReferenceIdeal.scatter_S50000x128_S1600000x1_S1600000x128_1_0_0_1.start (ix2 e k) idx 0 = (idx (ix2 e 0)).toInt := by
    unfold ScatterDims.start
    rw [dif_pos (show (0 : Fin 2) ∈ Cert.ReferenceIdeal.scatter_S50000x128_S1600000x1_S1600000x128_1_0_0_1.scatterDimsToOperandDims from List.mem_singleton.mpr rfl)]
    have hsi : Cert.ReferenceIdeal.scatter_S50000x128_S1600000x1_S1600000x128_1_0_0_1.siIdx (ix2 e k)
        ⟨List.idxOf (0 : Fin 2) Cert.ReferenceIdeal.scatter_S50000x128_S1600000x1_S1600000x128_1_0_0_1.scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : Cert.ReferenceIdeal.scatter_S50000x128_S1600000x1_S1600000x128_1_0_0_1.start (ix2 e k) idx 1 = 0 := by
    unfold ScatterDims.start
    rw [dif_neg (show (1 : Fin 2) ∉ Cert.ReferenceIdeal.scatter_S50000x128_S1600000x1_S1600000x128_1_0_0_1.scatterDimsToOperandDims by decide)]
  have hw0 : Cert.ReferenceIdeal.scatter_S50000x128_S1600000x1_S1600000x128_1_0_0_1.window (ix2 e k) 0 = 0 := rfl
  have hw1 : Cert.ReferenceIdeal.scatter_S50000x128_S1600000x1_S1600000x128_1_0_0_1.window (ix2 e k) 1 = k.val := rfl
  constructor
  · intro h
    have h0 := h 0
    have h1 := h 1
    rw [hs0, hw0] at h0
    rw [hs1, hw1] at h1
    have e0 : ((ix2 n k' : Cert.ReferenceIdeal.S50000x128.Idx) 0).val = n.val := rfl
    have e1 : ((ix2 n k' : Cert.ReferenceIdeal.S50000x128.Idx) 1).val = k'.val := rfl
    rw [e0] at h0
    rw [e1] at h1
    refine ⟨by omega, Fin.ext (by omega)⟩
  · rintro ⟨hn, rfl⟩ a
    match a with
    | ⟨0, _⟩ =>
      show Cert.ReferenceIdeal.scatter_S50000x128_S1600000x1_S1600000x128_1_0_0_1.start (ix2 e k) idx 0
        + (Cert.ReferenceIdeal.scatter_S50000x128_S1600000x1_S1600000x128_1_0_0_1.window (ix2 e k) 0 : Int) = (n.val : Int)
      rw [hs0, hw0, hn]; simp
    | ⟨1, _⟩ =>
      show Cert.ReferenceIdeal.scatter_S50000x128_S1600000x1_S1600000x128_1_0_0_1.start (ix2 e k) idx 1
        + (Cert.ReferenceIdeal.scatter_S50000x128_S1600000x1_S1600000x128_1_0_0_1.window (ix2 e k) 1 : Int) = (k.val : Int)
      rw [hs1, hw1]; simp

/-- The pooling scatter into [64,128]: update `(n, d)` lands on `(g, d')` exactly when node `n`'s graph id, read
    signed, is `g` and `d = d'`. -/
theorem scatterPool_lands (idx : IVec Cert.ReferenceIdeal.S50000x1 32) (n : Fin 50000) (d : Fin 128) (g : Fin 64) (d' : Fin 128) :
    Cert.ReferenceIdeal.scatter_S64x128_S50000x1_S50000x128_1_0_0_1.resultIdx? (ix2 n d) idx = some (ix2 g d') ↔ ((idx (ix2 n 0)).toInt = (g.val : Int) ∧ d = d') := by
  rw [resultIdx?_eq_some_iff]
  have hs0 : Cert.ReferenceIdeal.scatter_S64x128_S50000x1_S50000x128_1_0_0_1.start (ix2 n d) idx 0 = (idx (ix2 n 0)).toInt := by
    unfold ScatterDims.start
    rw [dif_pos (show (0 : Fin 2) ∈ Cert.ReferenceIdeal.scatter_S64x128_S50000x1_S50000x128_1_0_0_1.scatterDimsToOperandDims from List.mem_singleton.mpr rfl)]
    have hsi : Cert.ReferenceIdeal.scatter_S64x128_S50000x1_S50000x128_1_0_0_1.siIdx (ix2 n d)
        ⟨List.idxOf (0 : Fin 2) Cert.ReferenceIdeal.scatter_S64x128_S50000x1_S50000x128_1_0_0_1.scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hs1 : Cert.ReferenceIdeal.scatter_S64x128_S50000x1_S50000x128_1_0_0_1.start (ix2 n d) idx 1 = 0 := by
    unfold ScatterDims.start
    rw [dif_neg (show (1 : Fin 2) ∉ Cert.ReferenceIdeal.scatter_S64x128_S50000x1_S50000x128_1_0_0_1.scatterDimsToOperandDims by decide)]
  have hw0 : Cert.ReferenceIdeal.scatter_S64x128_S50000x1_S50000x128_1_0_0_1.window (ix2 n d) 0 = 0 := rfl
  have hw1 : Cert.ReferenceIdeal.scatter_S64x128_S50000x1_S50000x128_1_0_0_1.window (ix2 n d) 1 = d.val := rfl
  constructor
  · intro h
    have h0 := h 0
    have h1 := h 1
    rw [hs0, hw0] at h0
    rw [hs1, hw1] at h1
    have e0 : ((ix2 g d' : Cert.ReferenceIdeal.S64x128.Idx) 0).val = g.val := rfl
    have e1 : ((ix2 g d' : Cert.ReferenceIdeal.S64x128.Idx) 1).val = d'.val := rfl
    rw [e0] at h0
    rw [e1] at h1
    refine ⟨by omega, Fin.ext (by omega)⟩
  · rintro ⟨hn, rfl⟩ a
    match a with
    | ⟨0, _⟩ =>
      show Cert.ReferenceIdeal.scatter_S64x128_S50000x1_S50000x128_1_0_0_1.start (ix2 n d) idx 0 + (Cert.ReferenceIdeal.scatter_S64x128_S50000x1_S50000x128_1_0_0_1.window (ix2 n d) 0 : Int) = (g.val : Int)
      rw [hs0, hw0, hn]; simp
    | ⟨1, _⟩ =>
      show Cert.ReferenceIdeal.scatter_S64x128_S50000x1_S50000x128_1_0_0_1.start (ix2 n d) idx 1 + (Cert.ReferenceIdeal.scatter_S64x128_S50000x1_S50000x128_1_0_0_1.window (ix2 n d) 1 : Int) = (d.val : Int)
      rw [hs1, hw1]; simp

/-- The counting scatter into [64]: update `n` lands on `g` exactly when node `n`'s graph id, read signed, is `g`. -/
theorem scatterCount_lands (idx : IVec Cert.ReferenceIdeal.S50000x1 32) (n : Fin 50000) (g : Fin 64) :
    Cert.ReferenceIdeal.scatter_S64_S50000x1_S50000_n_0_0_1.resultIdx? (ix1 n) idx = some (ix1 g) ↔ (idx (ix2 n 0)).toInt = (g.val : Int) := by
  rw [resultIdx?_eq_some_iff]
  have hs0 : Cert.ReferenceIdeal.scatter_S64_S50000x1_S50000_n_0_0_1.start (ix1 n) idx 0 = (idx (ix2 n 0)).toInt := by
    unfold ScatterDims.start
    rw [dif_pos (show (0 : Fin 1) ∈ Cert.ReferenceIdeal.scatter_S64_S50000x1_S50000_n_0_0_1.scatterDimsToOperandDims from List.mem_singleton.mpr rfl)]
    have hsi : Cert.ReferenceIdeal.scatter_S64_S50000x1_S50000_n_0_0_1.siIdx (ix1 n)
        ⟨List.idxOf (0 : Fin 1) Cert.ReferenceIdeal.scatter_S64_S50000x1_S50000_n_0_0_1.scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hw0 : Cert.ReferenceIdeal.scatter_S64_S50000x1_S50000_n_0_0_1.window (ix1 n) 0 = 0 := rfl
  constructor
  · intro h
    have h0 := h 0
    rw [hs0, hw0] at h0
    have e0 : ((ix1 g : Cert.ReferenceIdeal.S64.Idx) 0).val = g.val := rfl
    rw [e0] at h0
    omega
  · intro hn a
    match a with
    | ⟨0, _⟩ =>
      show Cert.ReferenceIdeal.scatter_S64_S50000x1_S50000_n_0_0_1.start (ix1 n) idx 0 + (Cert.ReferenceIdeal.scatter_S64_S50000x1_S50000_n_0_0_1.window (ix1 n) 0 : Int) = (g.val : Int)
      rw [hs0, hw0, hn]; simp

/-! ## The wrap of an index -/

/-- The wrap of a negative index, `if v < 0 then v + 50000 else v`, leaves a word that reads as a row number in range
    alone, and the clamp then reads that row. -/
theorem clampRow_wrap_of_toInt (v : BitVec 32) (n : Fin 50000) (h : v.toInt = (n.val : Int)) :
    clampRow (Scalar.select (Scalar.cmpi .slt v 0#32) (v + 50000#32) v) = n := by
  have hslt : v.slt 0#32 = false := by
    rw [BitVec.slt, BitVec.toInt_zero, h]
    exact decide_eq_false (by omega)
  have hc : Scalar.cmpi .slt v 0#32 = 0#1 := by
    show BitVec.ofBool (v.slt 0#32) = 0#1
    rw [hslt]; rfl
  rw [hc, select_zero]
  refine Fin.ext ?_
  show min v.toInt.toNat 49999 = n.val
  rw [h, Int.toNat_natCast]
  have := n.isLt
  omega

end Cert.Proof.Index

end
-- ==== Proof.ScaleLaw.lean ====
/-
  The algebra that joins the two programs, on the extended reals. (1) A non-negative finite scalar distributes over a
  finite sum. (2) The layer law: scaling the gathered rows by the degree factor of their source node before the
  scatter-add, and the scattered sums by the factor of their target node after it, is scaling every gathered row by
  the product of the two factors before the scatter-add. (3) A scatter-add by graph id is the sum over all nodes
  weighted by the one-hot indicator of the id. (4) The reciprocal square root of something at least one is a
  non-negative finite number.
-/
import proofs.«428788_j14774687498490_3_alg».proof.Proof.IndexFacts
import Idealize.ShloMosaic.Lib.ValueIdxRank1
import Mathlib.Data.EReal.Operations
import Mathlib.Algebra.BigOperators.Group.Finset.Basic

noncomputable section

namespace Cert.Proof.Law

open Idealize.ShloMosaic Idealize.ShloMosaic.ValueIdx Cert.Proof.Index
open scoped BigOperators

/-- A non-negative scalar that is not `⊤` distributes over a finite sum of extended reals. -/
theorem sum_mul_of_nonneg {ι : Type} (s : Finset ι) (f : ι → EReal) (c : EReal) (h0 : 0 ≤ c) (ht : c ≠ ⊤) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The reciprocal square root of an extended real at least one is non-negative and finite. -/
theorem rsqrt_of_one_le (y : EReal) (h : 1 ≤ y) : 0 ≤ Ideal.rsqrt y ∧ Ideal.rsqrt y ≠ ⊤ := by
  induction y using EReal.rec with
  | bot => exact absurd (le_bot_iff.mp h) (by exact_mod_cast EReal.coe_ne_bot 1)
  | top => exact ⟨le_refl _, EReal.zero_ne_top⟩
  | coe r =>
    have hr : (1 : ℝ) ≤ r := by exact_mod_cast h
    have h1 : ¬ r < 0 := by linarith
    have h2 : ¬ r = 0 := by linarith
    have hv : Ideal.rsqrt (r : EReal) = (((Real.sqrt r)⁻¹ : ℝ) : EReal) := by
      show (if r < 0 then (⊥ : EReal) else if r = 0 then ⊤ else (((Real.sqrt r)⁻¹ : ℝ) : EReal)) = _
      rw [if_neg h1, if_neg h2]
    rw [hv]
    refine ⟨?_, EReal.coe_ne_top _⟩
    exact_mod_cast inv_nonneg.mpr (Real.sqrt_nonneg r)

/-- THE LAYER LAW. `h`: the node features; `dis`: the per-node degree factor, non-negative and finite; `srcw`: the
    (wrapped) source indices; `dst`: the target indices as the scatter reads them; `dstw`: the wrapped target indices as
    the gather of the factor reads them, which read row `n` wherever `dst` reads as `n` in range (`hwrap`). -/
theorem scatter_gather_scale (h : Cert.ReferenceIdeal.S50000x128.Idx → EReal) (dis : Cert.ReferenceIdeal.S50000.Idx → EReal)
    (h0 : ∀ n, 0 ≤ dis n) (ht : ∀ n, dis n ≠ ⊤)
    (srcw dstw dst : IVec Cert.ReferenceIdeal.S1600000x1 32)
    (hwrap : ∀ (e : Fin 1600000) (n : Fin 50000), (dst (ix2 e 0)).toInt = (n.val : Int) → clampRow (dstw (ix2 e 0)) = n)
    (n : Fin 50000) (k : Fin 128) :
    Ideal.hostScatterAdd Cert.ReferenceIdeal.scatter_S50000x128_S1600000x1_S1600000x128_1_0_0_1 (fun _ => 0) dst
        (Host.gather Cert.ReferenceIdeal.gather_S50000x128_S1600000x1_S1600000x128_1_0_n_n_0_1_1128 (fun i => h i * dis (ix1 ⟨(i 0).val, idx2_lt0 i⟩)) srcw) (ix2 n k) * dis (ix1 n)
      = Ideal.hostScatterAdd Cert.ReferenceIdeal.scatter_S50000x128_S1600000x1_S1600000x128_1_0_0_1 (fun _ => 0) dst
          (fun j => Host.gather Cert.ReferenceIdeal.gather_S50000x128_S1600000x1_S1600000x128_1_0_n_n_0_1_1128 h srcw j
            * (Host.gather Cert.ReferenceIdeal.gather_S50000_S1600000x1_S1600000_n_0_n_n_0_1_1 dis srcw (ix1 ⟨(j 0).val, idx2_lt0 j⟩)
                * Host.gather Cert.ReferenceIdeal.gather_S50000_S1600000x1_S1600000_n_0_n_n_0_1_1 dis dstw (ix1 ⟨(j 0).val, idx2_lt0 j⟩))) (ix2 n k) := by
  -- Both sides are the sum over the same set of updates: those whose target index word reads as row `n`, at column `k`.
  unfold Ideal.hostScatterAdd
  rw [zero_add, zero_add, sum_mul_of_nonneg _ _ _ (h0 (ix1 n)) (ht (ix1 n))]
  apply Finset.sum_congr rfl
  intro j hj
  obtain ⟨e, k', rfl⟩ : ∃ (e : Fin 1600000) (k' : Fin 128), j = ix2 e k' := ⟨j 0, j 1, eq_ix2 j⟩
  -- For such an update the wrapped target index reads row `n` of the factor, so the factor after the scatter is the
  -- gathered factor of the target; the rest is associativity of the product.
  obtain ⟨hdst, -⟩ := (scatterRows_lands dst e k' n k).mp (Finset.mem_filter.mp hj).2
  have hw := hwrap e n hdst
  have e1 : (ix1 ⟨((ix2 e k' : Cert.ReferenceIdeal.S1600000x128.Idx) 0).val, idx2_lt0 (ix2 e k')⟩ : Cert.ReferenceIdeal.S1600000.Idx) = ix1 e := rfl
  beta_reduce
  rw [e1, gatherRows_apply, gatherRows_apply, gatherFlat_apply, gatherFlat_apply, hw]
  exact mul_assoc _ _ _

/-- The indicator that graph id word `v` is graph `g`. -/
def oneHot (v : BitVec 32) (g : Fin 64) : EReal := if v = BitVec.ofNat 32 g.val then 1 else 0

/-- A word reads signed as `g < 64` exactly when it is the word of `g`. -/
theorem toInt_eq_iff (v : BitVec 32) (g : Fin 64) : v.toInt = (g.val : Int) ↔ v = BitVec.ofNat 32 g.val := by
  have hg := g.isLt
  constructor
  · intro h
    apply BitVec.eq_of_toNat_eq
    rw [BitVec.toNat_ofNat]
    have hv := v.isLt
    rw [BitVec.toInt_eq_toNat_cond] at h
    split at h <;> omega
  · rintro rfl
    rw [BitVec.toInt_eq_toNat_cond, BitVec.toNat_ofNat]
    split <;> omega

/-- Pooling by scatter-add is the indicator-weighted sum over all nodes. -/
theorem pool_scatter (gid : IVec Cert.ReferenceIdeal.S50000x1 32) (h : Cert.ReferenceIdeal.S50000x128.Idx → EReal) (g : Fin 64) (d : Fin 128) :
    Ideal.hostScatterAdd Cert.ReferenceIdeal.scatter_S64x128_S50000x1_S50000x128_1_0_0_1 (fun _ => 0) gid h (ix2 g d)
      = ∑ n : Fin 50000, oneHot (gid (ix2 n 0)) g * h (ix2 n d) := by
  -- The sum over the updates `(n, d')` that land on `(g, d)`, node by node: the inner sum over `d'` keeps `d' = d` only.
  unfold Ideal.hostScatterAdd
  rw [zero_add, Finset.sum_filter, sum_idx2]
  apply Finset.sum_congr rfl
  intro n _
  simp only [scatterPool_lands, toInt_eq_iff]
  unfold oneHot
  by_cases hv : gid (ix2 n 0) = BitVec.ofNat 32 g.val
  · simp only [hv, true_and, if_true, one_mul]
    rw [Finset.sum_ite_eq']
    simp
  · simp only [hv, false_and, if_false, zero_mul, Finset.sum_const_zero]

/-- The inverse of the rank-1 coordinate bijection builds the index from its coordinate. -/
theorem idxEquiv1_symm_apply {n : Nat} (a : Fin n) : (idxEquiv1 (n := n)).symm a = ix1 a := rfl

/-- Counting by scatter-add of ones is the sum of the indicators. -/
theorem count_scatter (gid : IVec Cert.ReferenceIdeal.S50000x1 32) (g : Fin 64) :
    Ideal.hostScatterAdd Cert.ReferenceIdeal.scatter_S64_S50000x1_S50000_n_0_0_1 (fun _ => 0) gid (fun _ => 1) (ix1 g)
      = ∑ n : Fin 50000, oneHot (gid (ix2 n 0)) g := by
  unfold Ideal.hostScatterAdd
  rw [zero_add, Finset.sum_filter, ← Equiv.sum_comp (idxEquiv1 (n := 50000)).symm]
  apply Finset.sum_congr rfl
  intro n _
  unfold oneHot
  simp only [idxEquiv1_symm_apply, scatterCount_lands, toInt_eq_iff]

end Cert.Proof.Law

end
-- ==== Proof.PayloadsAt.lean ====
/-
  The kernels' arithmetic read at one element, at the ideal instance (extended reals): each payload of the two kernel
  bodies as an explicit formula of its operand tiles' elements — the scaled dense layer's row, the one-hot matrix of a
  tile's graph ids, one grid point's contribution to the pooled sums and to the counts, and the classifier head.
-/
import proofs.«428788_j14774687498490_3_alg».proof.Proof.Gen.KernelIdeal.Skeleton
import proofs.«428788_j14774687498490_3_alg».proof.Proof.ScaleLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.ValueIdx Cert.Proof.Law
open scoped BigOperators

/-- One row of a dense layer on scaled inputs: `relu (Σ_k (a_k · s) · W_{k j} + b_j)`. -/
def denseRow (a : Fin 128 → EReal) (s : EReal) (W : Fin 128 → EReal) (b : EReal) : EReal :=
  max (∑ k : Fin 128, (a k * s) * W k + b) 0

/-! ## Layout operations at an index: a column spread over the lanes -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense layer's product, at an index

The left operand reads the output row on its axis 0 and the contraction position on its axis 1; the right operand the
contraction position on its axis 0 and the output column on its axis 1. -/

theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The dense layer's product into a zero accumulator, at row `r`, column `j`: the row of the left operand against
    the column of the right one. -/
theorem matmul_dense_apply {φ₁ φ₂ : FTy} (lhs : FVec Ideal S5000x128 φ₁) (rhs : FVec Ideal S128x128 φ₂) (r : Fin 5000) (j : Fin 128) :
    matmul dot_S5000x128_S128x128_S5000x128_1_0_0_1_n_n none lhs rhs (constant (F := Ideal) S5000x128 .f32 0x00000000#32) (ix2 r j)
      = ∑ k : Fin 128, lhs (ix2 r k) * rhs (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_dense_0 _ _
    | ⟨1, _⟩ => exact (lhs_dense_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_dense_0 _ _).trans hk
    | ⟨1, _⟩ => exact rhs_dense_1 _ _)
  rw [el, er]

/-- The first kernel's payload at row `r`, column `j` of the tile: the dense row, scaled once more. -/
theorem k0_pay1_apply (xdis : Vec Ideal S5000x1 .f32) (xagg : Vec Ideal S5000x128 .f32) (xw : Vec Ideal S128x128 .f32)
    (xb : Vec Ideal S1x128 .f32) (r : Fin 5000) (j : Fin 128) :
    k0_pay1 (F := Ideal) xdis xagg xw xb (ix2 r j)
      = denseRow (fun k => xagg (ix2 r k)) (xdis (ix2 r 0)) (fun k => xw (ix2 k j)) (xb (ix2 0 j)) * xdis (ix2 r 0) := by
  unfold k0_pay1 denseRow
  simp only [shapeCast_self]
  rw [mulf_apply, maximumf_apply, addf_apply, broadcast_apply, matmul_dense_apply, broadcastTo_a1_ab_apply, broadcastTo_1b_ab_apply]
  simp only [truncf_apply, mulf_apply, broadcastTo_a1_ab_apply]
  rw [show (FloatOps.ofBits FTy.f32 0x00000000#32 : Ideal .f32) = 0 from Ideal.ofBits_zero_f32]

/-- The zero fills. -/
theorem k1_pay3_apply (i : S64x128.Idx) : k1_pay3 (F := Ideal) i = 0 := by
  unfold k1_pay3
  simp only [shapeCast_self]
  exact Ideal.ofBits_zero_f32
theorem k1_pay4_apply (i : S1x64.Idx) : k1_pay4 (F := Ideal) i = 0 := by
  unfold k1_pay4
  simp only [shapeCast_self]
  exact Ideal.ofBits_zero_f32

/-! ## The one-hot matrix -/

/-- The one-hot matrix of a tile's graph ids. -/
theorem k1_pay5_apply (xgid : Vec Ideal S5000x1 .i32) (r : Fin 5000) (g : Fin 64) :
    k1_pay5 (F := Ideal) xgid (ix2 r g) = oneHot (xgid (ix2 r 0)) g := by
  unfold k1_pay5 oneHot
  simp only [shapeCast_self]
  rw [sitofp_apply, extui_apply]
  show FloatOps.sitofp (F := Ideal) .f32 ((IntOp.cmpi .eq (broadcastTo S5000x64 xgid broadcasts_S5000x1_S5000x64 (ix2 r g))
    (iota .tc S5000x64 32 [1] iota_S5000x64_d1_w32 (ix2 r g))).setWidth 32) = _
  rw [broadcastTo_a1_ab_apply, iota_single_apply]
  show ((((IntOp.cmpi .eq (xgid (ix2 r 0)) (BitVec.ofNat 32 g.val)).setWidth 32).toInt : ℝ) : EReal) = _
  have hc : IntOp.cmpi .eq (xgid (ix2 r 0)) (BitVec.ofNat 32 g.val)
      = BitVec.ofBool (xgid (ix2 r 0) == BitVec.ofNat 32 g.val) := rfl
  rw [hc]
  by_cases hv : xgid (ix2 r 0) = BitVec.ofNat 32 g.val
  · rw [if_pos hv, beq_iff_eq.mpr hv]
    have h1 : ((BitVec.ofBool true).setWidth 32).toInt = 1 := by decide
    rw [h1]; simp
  · rw [if_neg hv, beq_eq_false_iff_ne.mpr hv]
    have h0 : ((BitVec.ofBool false).setWidth 32).toInt = 0 := by decide
    rw [h0]; simp

/-! ## The pooling product, at an index: both operands contracted on their rows

Both operands read the contraction position on their axis 0; the left one reads the output's axis 0 on its axis 1, the
right one the output's axis 1 on its axis 1. -/

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The pooling product into a zero accumulator, at graph `g`, feature `d`: the sum over the tile's rows of the left
    operand's column `g` times the right operand's column `d`. -/
theorem matmul_pool_apply {φ₁ φ₂ : FTy} (lhs : FVec Ideal S5000x64 φ₁) (rhs : FVec Ideal S5000x128 φ₂) (g : Fin 64) (d : Fin 128) :
    matmul dot_S5000x64_S5000x128_S64x128_0_0_1_1_n_n none lhs rhs (constant (F := Ideal) S64x128 .f32 0x00000000#32) (ix2 g d)
      = ∑ r : Fin 5000, lhs (ix2 r g) * rhs (ix2 r d) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- One grid point's update of the pooled sums at graph `g`, feature `d`: the previous sum plus the tile's rows of
    that graph. -/
theorem k1_pay6_apply (xagg : Vec Ideal S5000x128 .f32) (xdis : Vec Ideal S5000x1 .f32) (xw : Vec Ideal S128x128 .f32)
    (xb : Vec Ideal S1x128 .f32) (xgid : Vec Ideal S5000x1 .i32) (prev : Vec Ideal S64x128 .f32) (g : Fin 64) (d : Fin 128) :
    k1_pay6 (F := Ideal) xagg xdis xw xb xgid prev (ix2 g d)
      = prev (ix2 g d) + ∑ r : Fin 5000, oneHot (xgid (ix2 r 0)) g
          * denseRow (fun k => xagg (ix2 r k)) (xdis (ix2 r 0)) (fun k => xw (ix2 k d)) (xb (ix2 0 d)) := by
  unfold k1_pay6 denseRow
  simp only [shapeCast_self]
  rw [addf_apply, matmul_pool_apply]
  refine congrArg (prev (ix2 g d) + ·) (Finset.sum_congr rfl fun r _ => ?_)
  rw [truncf_apply, truncf_apply, k1_pay5_apply, maximumf_apply, addf_apply, broadcast_apply, matmul_dense_apply, broadcastTo_1b_ab_apply]
  simp only [truncf_apply, mulf_apply, broadcastTo_a1_ab_apply]
  rw [show (FloatOps.ofBits FTy.f32 0x00000000#32 : Ideal .f32) = 0 from Ideal.ofBits_zero_f32]

/-! ## The counts: a column sum of the one-hot matrix -/

/-- The sum over the rows of a `[5000, 64]` tile, at column `g`. -/
theorem colsum_apply (oh : FVec Ideal S5000x64 .f32) (hφ : FKind.Formats .f32)
    (hacc : (0x00000000#32 : BitVec 32) = 0x00000000#32) (g : Fin 64) :
    multiReduction (F := Ideal) .add [0] S64 oh 0x00000000#32 reduces_S5000x64_S64 hφ hacc (ix1 g)
      = ∑ r : Fin 5000, oh (ix2 r g) := by
  refine (Ideal.multiReduction_add_single oh 0x00000000#32 reduces_S5000x64_S64 hφ hacc (ix1 g)).trans ?_
  refine Finset.sum_congr rfl fun r _ => congrArg oh ?_
  funext a
  match a with
  | ⟨0, _⟩ => rfl
  | ⟨1, _⟩ => rfl

/-- One grid point's update of the counts at graph `g`: the previous count plus the column sum of the one-hot matrix. -/
theorem k1_pay1_apply (oh : FVec Ideal S5000x64 .f32) (prev : Vec Ideal S1x64 .f32) (g : Fin 64) :
    k1_pay1 (F := Ideal) oh prev (ix2 0 g) = prev (ix2 0 g) + ∑ r : Fin 5000, oh (ix2 r g) := by
  unfold k1_pay1
  simp only [shapeCast_self]
  rw [addf_apply, shapeCast_a_1a_apply, colsum_apply]

/-! ## The classifier's product, at an index

The same arrangement of axes as the dense layer's product, on a `[64, 128]` by `[128, 8]` pair. -/

theorem lhs_head_0 (i : S64x8.Idx) (q : dot_S64x128_S128x8_S64x8_1_0_0_1_n_n.contr.Idx) :
    (dot_S64x128_S128x8_S64x8_1_0_0_1_n_n.lhsIdx i q 0).val = (i 0).val := by
  unfold DotDims.lhsIdx
  rw [dif_neg (show ¬(0 : Fin S64x128.rank) ∈ dot_S64x128_S128x8_S64x8_1_0_0_1_n_n.lhsBatch by decide), dif_pos (show (0 : Fin S64x128.rank) ∈ dot_S64x128_S128x8_S64x8_1_0_0_1_n_n.lhsNonContracting by decide)]
  rfl
theorem lhs_head_1 (i : S64x8.Idx) (q : dot_S64x128_S128x8_S64x8_1_0_0_1_n_n.contr.Idx) :
    (dot_S64x128_S128x8_S64x8_1_0_0_1_n_n.lhsIdx i q 1).val = (q ⟨0, by decide⟩).val :=
  dot_S64x128_S128x8_S64x8_1_0_0_1_n_n.lhsIdx_val_of_single rfl i q
theorem rhs_head_0 (i : S64x8.Idx) (q : dot_S64x128_S128x8_S64x8_1_0_0_1_n_n.contr.Idx) :
    (dot_S64x128_S128x8_S64x8_1_0_0_1_n_n.rhsIdx i q 0).val = (q ⟨0, by decide⟩).val :=
  dot_S64x128_S128x8_S64x8_1_0_0_1_n_n.rhsIdx_val_of_single rfl i q
theorem rhs_head_1 (i : S64x8.Idx) (q : dot_S64x128_S128x8_S64x8_1_0_0_1_n_n.contr.Idx) :
    (dot_S64x128_S128x8_S64x8_1_0_0_1_n_n.rhsIdx i q 1).val = (i 1).val := by
  unfold DotDims.rhsIdx
  rw [dif_neg (show ¬(1 : Fin S128x8.rank) ∈ dot_S64x128_S128x8_S64x8_1_0_0_1_n_n.rhsBatch by decide), dif_pos (show (1 : Fin S128x8.rank) ∈ dot_S64x128_S128x8_S64x8_1_0_0_1_n_n.rhsNonContracting by decide)]
  rfl

/-- The classifier's product into a zero accumulator, at graph `g`, class `q`: the pooled row against the
    classifier's column. -/
theorem matmul_head_apply {φ₁ φ₂ : FTy} (lhs : FVec Ideal S64x128 φ₁) (rhs : FVec Ideal S128x8 φ₂) (g : Fin 64) (q : Fin 8) :
    matmul dot_S64x128_S128x8_S64x8_1_0_0_1_n_n none lhs rhs (constant (F := Ideal) S64x8 .f32 0x00000000#32) (ix2 g q)
      = ∑ d : Fin 128, lhs (ix2 g d) * rhs (ix2 d q) := by
  simp only [matmul]
  rw [Ideal.matmul_constant_zero_apply, ← Equiv.sum_comp (contrEquiv1 dot_S64x128_S128x8_S64x8_1_0_0_1_n_n 128 rfl rfl).symm]
  refine Finset.sum_congr rfl fun k _ => ?_
  have hk := contrEquiv1_symm_val dot_S64x128_S128x8_S64x8_1_0_0_1_n_n 128 rfl rfl k
  have el : dot_S64x128_S128x8_S64x8_1_0_0_1_n_n.lhsIdx (ix2 g q) ((contrEquiv1 dot_S64x128_S128x8_S64x8_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S64x128_S128x8_S64x8_1_0_0_1_n_n.rhsIdx (ix2 g q) ((contrEquiv1 dot_S64x128_S128x8_S64x8_1_0_0_1_n_n 128 rfl rfl).symm k) = ix2 k q := funext fun a => Fin.ext (by
    match a with
    | ⟨0, _⟩ => exact (rhs_head_0 _ _).trans hk
    | ⟨1, _⟩ => exact rhs_head_1 _ _)
  rw [el, er]

/-- The classifier head at graph `g`, class `q`: the mean-pooled row times the classifier's column, plus the bias. -/
theorem k1_pay2_apply (cnt : Vec Ideal S1x64 .f32) (acc : Vec Ideal S64x128 .f32) (wc : Vec Ideal S128x8 .f32)
    (bc : Vec Ideal S1x8 .f32) (g : Fin 64) (q : Fin 8) :
    k1_pay2 (F := Ideal) cnt acc wc bc (ix2 g q)
      = ∑ d : Fin 128, Ideal.div (acc (ix2 g d)) (max (cnt (ix2 0 g)) (Ideal.ofBits .f32 0x3F800000#32)) * wc (ix2 d q)
        + bc (ix2 0 q) := by
  unfold k1_pay2
  simp only [shapeCast_self]
  rw [addf_apply, matmul_head_apply, broadcastTo_1b_ab_apply]
  have ht : transpose S64x1 [1, 0] cnt transposes_S1x64_p1_0_S64x1 (ix2 g (0 : Fin 1)) = cnt (ix2 0 g) :=
    transpose_ix2_apply cnt transposes_S1x64_p1_0_S64x1 g (0 : Fin 1)
  simp only [truncf_apply, divf_apply, broadcastTo_a1_ab_apply, maximumf_apply, broadcast_apply, ht]
  rfl

end Cert.KernelIdeal.HandValue

end
-- ==== Proof.KVal0.lean ====
/-
  The first kernel launch's output array at the ideal instance, element by element: the grid's ten row tiles
  cover the array, and row `n` of the array is the scaled dense row of row `n` of the operands.
-/
import proofs.«428788_j14774687498490_3_alg».proof.Proof.Region0
import proofs.«428788_j14774687498490_3_alg».proof.Proof.Region1
import proofs.«428788_j14774687498490_3_alg».proof.Proof.PayloadsAt

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Cert.Proof.Law
open Idealize.SL.Sem
open Idealize.ShloMosaic.Pipeline (Dat Cfg Window)
open scoped BigOperators

-- the contents of the core's buffers when the launch is entered: a parameter
variable (V : (c : Dev nD) → (b : Ref sig .tc) → Buf (Elt Ideal) ((c : Thread nD τ).loc b))

/-! ## The output array as one function of the operand arrays -/

/-- Row \`n\`, column \`j\` of the launch's result from the four operand arrays: the dense row of row \`n\`, scaled. -/
def outAt (a : S50000x128.Idx → EReal) (s : S50000x1.Idx → EReal) (W : S128x128.Idx → EReal) (b : S1x128.Idx → EReal)
    (n : Fin 50000) (j : Fin 128) : EReal :=
  denseRow (fun k => a (ix2 n k)) (s (ix2 n 0)) (fun k => W (ix2 k j)) (b (ix2 0 j)) * s (ix2 n 0)

/-- The whole result array: \`outAt\` at the index's two coordinates. -/
def outArr (a : S50000x128.Idx → EReal) (s : S50000x1.Idx → EReal) (W : S128x128.Idx → EReal) (b : S1x128.Idx → EReal) :
    S50000x128.Idx → EReal :=
  fun i => outAt a s W b (i 0) (i 1)

/-! ## Where each window's tile sits in its array -/

/-- The block indices of the five windows at grid point \`t\`: the row-tiled operands and the result are at row block
    \`t\`, column block 0; the weight and the bias are the one block of their arrays. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row \`r\` of the agg tile at point \`t\` is row \`5000 t + r\` of the agg array. -/
theorem agg_tile_apply (c : Dev nD) (t : Fin cfg0.N) (r : Fin 5000) (k : Fin 128) (n : Fin 50000)
    (hn : n.val = t.val * 5000 + r.val) :
    (blk0 V c 0 t : S5000x128.Idx → EReal) (ix2 r k) = (V c main_v30 : S50000x128.Idx → EReal) (ix2 n k) := by
  obtain ⟨e0, e1, -⟩ := tile_index t
  unfold blk0
  rw [View.read_apply]
  show (V c main_v30 : S50000x128.Idx → EReal) _ = _
  congr 1
  funext a
  apply Fin.ext
  match a with
  | ⟨0, _⟩ => show win0_0.index t (0 : Fin 2) * 5000 + 1 * r.val = n.val; omega
  | ⟨1, _⟩ => show win0_0.index t (1 : Fin 2) * 128 + 1 * k.val = k.val; omega

/-- Row \`r\` of the dis tile at point \`t\` is row \`5000 t + r\` of the dis column. -/
theorem dis_tile_apply (c : Dev nD) (t : Fin cfg0.N) (r : Fin 5000) (n : Fin 50000)
    (hn : n.val = t.val * 5000 + r.val) :
    (blk0 V c 1 t : S5000x1.Idx → EReal) (ix2 r 0) = (V c main_v14 : S50000x1.Idx → EReal) (ix2 n 0) := by
  obtain ⟨-, -, e0, e1, -⟩ := tile_index t
  unfold blk0
  rw [View.read_apply]
  show (V c main_v14 : S50000x1.Idx → EReal) _ = _
  congr 1
  funext a
  apply Fin.ext
  match a with
  | ⟨0, _⟩ => show win0_1.index t (0 : Fin 2) * 5000 + 1 * r.val = n.val; omega
  | ⟨1, _⟩ => show win0_1.index t (1 : Fin 2) * 1 + 1 * 0 = 0; omega

/-- The weight tile is the weight array at every point. -/
theorem w_tile_apply (c : Dev nD) (t : Fin cfg0.N) (k j : Fin 128) :
    (blk0 V c 2 t : S128x128.Idx → EReal) (ix2 k j) = (V c main_arg3 : S128x128.Idx → EReal) (ix2 k j) := by
  obtain ⟨-, -, -, -, e0, e1, -⟩ := tile_index t
  unfold blk0
  rw [View.read_apply]
  show (V c main_arg3 : S128x128.Idx → EReal) _ = _
  congr 1
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

/-- The bias tile is the bias array at every point. -/
theorem b_tile_apply (c : Dev nD) (t : Fin cfg0.N) (j : Fin 128) :
    (blk0 V c 3 t : S1x128.Idx → EReal) (ix2 0 j) = (V c main_v31 : S1x128.Idx → EReal) (ix2 0 j) := by
  obtain ⟨-, -, -, -, -, -, e0, e1, -⟩ := tile_index t
  unfold blk0
  rw [View.read_apply]
  show (V c main_v31 : S1x128.Idx → EReal) _ = _
  congr 1
  funext a
  apply Fin.ext
  match a with
  | ⟨0, _⟩ => show win0_3.index t (0 : Fin 2) * 1 + 1 * 0 = 0; omega
  | ⟨1, _⟩ => show win0_3.index t (1 : Fin 2) * 128 + 1 * j.val = j.val; omega

/-! ## What a grid point writes back -/

/-- The body's output tile at point \`t\`, row \`r\`, column \`j\` is the result function at row \`5000 t + r\`. -/
theorem tile_apply (c : Dev nD) (t : Fin cfg0.N) (r : Fin 5000) (j : Fin 128) (n : Fin 50000)
    (hn : n.val = t.val * 5000 + r.val) :
    tile0 (blk0 V c 0 t) (blk0 V c 1 t) (blk0 V c 2 t) (blk0 V c 3 t) (ix2 r j)
      = outAt (V c main_v30) (V c main_v14) (V c main_arg3) (V c main_v31) n j := by
  unfold tile0 outAt
  rw [k0_pay1_apply]
  simp only [agg_tile_apply V c t r _ n hn, dis_tile_apply V c t r n hn, w_tile_apply V c t, b_tile_apply V c t]

/-- What point \`t\` writes back is tile \`t\` of the result array. -/
theorem flushed_eq (c : Dev nD) (t : Fin cfg0.N) :
    (dat0 V c).flushed 4 t = ((cfg0.win 4).blk t).view.read (Elt Ideal)
      (outArr (V c main_v30) (V c main_v14) (V c main_arg3) (V c main_v31)) := by
  show (cfg0.win 4).cut (grid0.coords t) ((dat0 V c).after 4 t) = _
  rw [after0_4]
  obtain ⟨-, -, -, -, -, -, -, -, e0, e1⟩ := tile_index t
  funext y
  obtain ⟨r, j, rfl⟩ : ∃ (r : Fin 5000) (j : Fin 128), y = ix2 r j := ⟨y 0, y 1, eq_ix2 y⟩
  have hr : r.val < 5000 := r.isLt
  have ht : t.val < 10 := t.isLt
  show tile0 (blk0 V c 0 t) (blk0 V c 1 t) (blk0 V c 2 t) (blk0 V c 3 t) (ix2 r j)
    = outAt (V c main_v30) (V c main_v14) (V c main_arg3) (V c main_v31)
        ⟨win0_4.index t (0 : Fin 2) * 5000 + 1 * r.val, by omega⟩ ⟨win0_4.index t (1 : Fin 2) * 128 + 1 * j.val, by omega⟩
  rw [tile_apply V c t r j ⟨win0_4.index t (0 : Fin 2) * 5000 + 1 * r.val, by omega⟩ (by show _ + _ = _; omega)]
  congr 1
  apply Fin.ext
  show j.val = win0_4.index t (1 : Fin 2) * 128 + 1 * j.val
  omega

/-! ## The tiles cover the array -/

/-- An index of the result array is in point \`t\`'s tile when each coordinate is in the tile's range on its axis. -/
theorem mem_tile (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v32).slice (win0_4.rect t)).set ↔ _
  rw [View.set_slice_whole, Rect.mem_set_unit]
  exact Iff.rfl

/-- Row \`n\` of the result array is in the tile of point \`n / 5000\`, which is written back. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by omega⟩, flush0_4 _, ?_⟩
  obtain ⟨-, -, -, -, -, -, -, -, e0, e1⟩ := tile_index ⟨(i 0).val / 5000, by omega⟩
  rw [mem_tile]
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- So after the ten write-backs the result array is the result function of the operand arrays. -/
theorem arr0_eq (c : Dev nD) :
    (dat0 V c).arrAt 4 cfg0.N = outArr (V c main_v30) (V c main_v14) (V c main_arg3) (V c main_v31) :=
  (dat0 V c).arrAt_eq_of_cover 4 (outArr (V c main_v30) (V c main_v14) (V c main_arg3) (V c main_v31))
    (fun t _ => flushed_eq V c t) covered

/-- The output array of the first launch after all its write-backs, at row `n`, column `j`. -/
theorem arr0_apply (c : Dev nD) (n : Fin 50000) (j : Fin 128) :
    ((dat0 V c).arrAt 4 cfg0.N : S50000x128.Idx → EReal) (ix2 n j)
      = denseRow (fun k => (V c main_v30 : S50000x128.Idx → EReal) (ix2 n k))
          ((V c main_v14 : S50000x1.Idx → EReal) (ix2 n 0))
          (fun k => (V c main_arg3 : S128x128.Idx → EReal) (ix2 k j))
          ((V c main_v31 : S1x128.Idx → EReal) (ix2 0 j))
        * (V c main_v14 : S50000x1.Idx → EReal) (ix2 n 0) := by
  rw [arr0_eq V c]
  rfl

end Cert.KernelIdeal.HandValue

end
-- ==== Proof.KVal1.lean ====
/-
  The second kernel launch's result array at the ideal instance, element by element: the accumulators after the
  last grid point are the sums over all fifty thousand nodes (ten tiles of five thousand rows), and the result is the
  classifier head of the mean-pooled rows.
-/
import proofs.«428788_j14774687498490_3_alg».proof.Proof.Region0
import proofs.«428788_j14774687498490_3_alg».proof.Proof.Region1
import proofs.«428788_j14774687498490_3_alg».proof.Proof.PayloadsAt
import Idealize.ShloMosaic.Lib.Pipeline.Value
import Mathlib.Algebra.BigOperators.Fin
import Mathlib.Algebra.BigOperators.Group.Finset.Basic
import Mathlib.Data.Fintype.BigOperators
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Cert.Proof.Law
open Idealize.SL.Sem
open Idealize.ShloMosaic.Pipeline (Dat Cfg Window)
open scoped BigOperators

-- the contents of the core's buffers when the launch is entered: a parameter
variable (V : (c : Dev nD) → (b : Ref sig .tc) → Buf (Elt Ideal) ((c : Thread nD τ).loc b))

/-- The hidden row of node `n` at feature `d` as the second launch computes it from its operands. -/
def hidden2 (c : Dev nD) (n : Fin 50000) (d : Fin 128) : EReal :=
  denseRow (fun k => (V c main_v44 : S50000x128.Idx → EReal) (ix2 n k))
    ((V c main_v14 : S50000x1.Idx → EReal) (ix2 n 0))
    (fun k => (V c main_arg5 : S128x128.Idx → EReal) (ix2 k d))
    ((V c main_v45 : S1x128.Idx → EReal) (ix2 0 d))

/-! ## Rows of the node arrays by number -/

/-- Row `m` of the node arrays, the number read modulo the row count (so that it names a row for every `m`). -/
def rowN (m : ℕ) : Fin 50000 := ⟨m % 50000, Nat.mod_lt _ (by decide)⟩

/-- A sum over the fifty thousand rows is the sum over the ten tiles of the sums over a tile's five thousand rows:
    row `r` of tile `t` is row `5000 t + r`. -/
theorem sum_tiles (f : Fin 50000 → EReal) :
    ∑ t ∈ Finset.range 10, ∑ r : Fin 5000, f (rowN (5000 * t + r.val)) = ∑ n : Fin 50000, f n := by
  rw [Finset.sum_range (fun t => ∑ r : Fin 5000, f (rowN (5000 * t + r.val)))]
  rw [← Fintype.sum_prod_type (f := fun p : Fin 10 × Fin 5000 => f (rowN (5000 * p.1.val + p.2.val)))]
  refine Fintype.sum_equiv (finProdFinEquiv (m := 10) (n := 5000)) _ f (fun p => ?_)
  refine congrArg f (Fin.ext ?_)
  have h1 : p.1.val < 10 := p.1.isLt
  have h2 : p.2.val < 5000 := p.2.isLt
  show (5000 * p.1.val + p.2.val) % 50000 = p.2.val + 5000 * p.1.val
  omega

/-! ## The tiles the grid points read, as entries of the operand arrays -/

/-- The block indices of the three row-tiled operands at grid point `t`: tile `t` of the rows, the one column tile. -/
theorem index1_tiled : ∀ t : Fin grid1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) := by decide +kernel

/-- The block indices of the operands held whole, and of the result: zero at every point. -/
theorem index1_whole : ∀ t : Fin grid1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) := by decide +kernel

/-- Row `r` of the aggregated-feature tile at point `t` is row `5000 t + r` of the array. -/
theorem blk1_0_apply (c : Dev nD) (t : Fin cfg1.N) (r : Fin 5000) (k : Fin 128) :
    (blk1 V c 0 t : Vec Ideal S5000x128 .f32) (ix2 r k)
      = (V c main_v44 : S50000x128.Idx → EReal) (ix2 (rowN (5000 * t.val + r.val)) k) := by
  have hN : grid1.N = 10 := N_1
  have ht : t.val < 10 := hN ▸ t.isLt
  unfold blk1
  rw [View.read_apply]
  show V c main_v44 (((cfg1.win 0).blk t).view.emb (ix2 r k)) = V c main_v44 _
  refine congrArg _ ?_
  funext a
  apply Fin.ext
  match a with
  | ⟨0, _⟩ =>
    show win1_0.index t 0 * 5000 + 1 * r.val = (5000 * t.val + r.val) % 50000
    rw [(index1_tiled t).1.1]; omega
  | ⟨1, _⟩ =>
    show win1_0.index t 1 * 128 + 1 * k.val = k.val
    rw [(index1_tiled t).1.2]; omega

/-- Row `r` of the degree-factor tile at point `t` is row `5000 t + r` of the array. -/
theorem blk1_1_apply (c : Dev nD) (t : Fin cfg1.N) (r : Fin 5000) :
    (blk1 V c 1 t : Vec Ideal S5000x1 .f32) (ix2 r 0)
      = (V c main_v14 : S50000x1.Idx → EReal) (ix2 (rowN (5000 * t.val + r.val)) 0) := by
  have hN : grid1.N = 10 := N_1
  have ht : t.val < 10 := hN ▸ t.isLt
  unfold blk1
  rw [View.read_apply]
  show V c main_v14 (((cfg1.win 1).blk t).view.emb (ix2 r 0)) = V c main_v14 _
  refine congrArg _ ?_
  funext a
  apply Fin.ext
  match a with
  | ⟨0, _⟩ =>
    show win1_1.index t 0 * 5000 + 1 * r.val = (5000 * t.val + r.val) % 50000
    rw [(index1_tiled t).2.1.1]; omega
  | ⟨1, _⟩ =>
    show win1_1.index t 1 * 1 + 1 * 0 = 0
    rw [(index1_tiled t).2.1.2]

/-- Row `r` of the graph-id tile at point `t` is row `5000 t + r` of the array. -/
theorem blk1_2_apply (c : Dev nD) (t : Fin cfg1.N) (r : Fin 5000) :
    (blk1 V c 2 t : Vec Ideal S5000x1 .i32) (ix2 r 0)
      = (V c main_v15 : S50000x1.Idx → BitVec 32) (ix2 (rowN (5000 * t.val + r.val)) 0) := by
  have hN : grid1.N = 10 := N_1
  have ht : t.val < 10 := hN ▸ t.isLt
  unfold blk1
  rw [View.read_apply]
  show V c main_v15 (((cfg1.win 2).blk t).view.emb (ix2 r 0)) = V c main_v15 _
  refine congrArg _ ?_
  funext a
  apply Fin.ext
  match a with
  | ⟨0, _⟩ =>
    show win1_2.index t 0 * 5000 + 1 * r.val = (5000 * t.val + r.val) % 50000
    rw [(index1_tiled t).2.2.1]; omega
  | ⟨1, _⟩ =>
    show win1_2.index t 1 * 1 + 1 * 0 = 0
    rw [(index1_tiled t).2.2.2]

/-- The dense layer's weights are read whole at every point. -/
theorem blk1_3_apply (c : Dev nD) (t : Fin cfg1.N) (k : Fin 128) (d : Fin 128) :
    (blk1 V c 3 t : Vec Ideal S128x128 .f32) (ix2 k d) = (V c main_arg5 : S128x128.Idx → EReal) (ix2 k d) := by
  unfold blk1
  rw [View.read_apply]
  show V c main_arg5 (((cfg1.win 3).blk t).view.emb (ix2 k d)) = V c main_arg5 _
  refine congrArg _ ?_
  funext a
  apply Fin.ext
  match a with
  | ⟨0, _⟩ =>
    show win1_3.index t 0 * 128 + 1 * k.val = k.val
    rw [(index1_whole t).1.1]; omega
  | ⟨1, _⟩ =>
    show win1_3.index t 1 * 128 + 1 * d.val = d.val
    rw [(index1_whole t).1.2]; omega

/-- The dense layer's bias is read whole at every point. -/
theorem blk1_4_apply (c : Dev nD) (t : Fin cfg1.N) (d : Fin 128) :
    (blk1 V c 4 t : Vec Ideal S1x128 .f32) (ix2 0 d) = (V c main_v45 : S1x128.Idx → EReal) (ix2 0 d) := by
  unfold blk1
  rw [View.read_apply]
  show V c main_v45 (((cfg1.win 4).blk t).view.emb (ix2 0 d)) = V c main_v45 _
  refine congrArg _ ?_
  funext a
  apply Fin.ext
  match a with
  | ⟨0, _⟩ =>
    show win1_4.index t 0 * 1 + 1 * 0 = 0
    rw [(index1_whole t).2.1.1]
  | ⟨1, _⟩ =>
    show win1_4.index t 1 * 128 + 1 * d.val = d.val
    rw [(index1_whole t).2.1.2]; omega

/-- The classifier's weights are read whole at every point. -/
theorem blk1_5_apply (c : Dev nD) (t : Fin cfg1.N) (d : Fin 128) (q : Fin 8) :
    (blk1 V c 5 t : Vec Ideal S128x8 .f32) (ix2 d q) = (V c main_arg7 : S128x8.Idx → EReal) (ix2 d q) := by
  unfold blk1
  rw [View.read_apply]
  show V c main_arg7 (((cfg1.win 5).blk t).view.emb (ix2 d q)) = V c main_arg7 _
  refine congrArg _ ?_
  funext a
  apply Fin.ext
  match a with
  | ⟨0, _⟩ =>
    show win1_5.index t 0 * 128 + 1 * d.val = d.val
    rw [(index1_whole t).2.2.1.1]; omega
  | ⟨1, _⟩ =>
    show win1_5.index t 1 * 8 + 1 * q.val = q.val
    rw [(index1_whole t).2.2.1.2]; omega

/-- The classifier's bias is read whole at every point. -/
theorem blk1_6_apply (c : Dev nD) (t : Fin cfg1.N) (q : Fin 8) :
    (blk1 V c 6 t : Vec Ideal S1x8 .f32) (ix2 0 q) = (V c main_v46 : S1x8.Idx → EReal) (ix2 0 q) := by
  unfold blk1
  rw [View.read_apply]
  show V c main_v46 (((cfg1.win 6).blk t).view.emb (ix2 0 q)) = V c main_v46 _
  refine congrArg _ ?_
  funext a
  apply Fin.ext
  match a with
  | ⟨0, _⟩ =>
    show win1_6.index t 0 * 1 + 1 * 0 = 0
    rw [(index1_whole t).2.2.2.1.1]
  | ⟨1, _⟩ =>
    show win1_6.index t 1 * 8 + 1 * q.val = q.val
    rw [(index1_whole t).2.2.2.1.2]; omega

/-! ## The accumulators after each grid point -/

/-- The graph-id word of node `n`. -/
abbrev gidOf (c : Dev nD) (n : Fin 50000) : BitVec 32 := (V c main_v15 : S50000x1.Idx → BitVec 32) (ix2 n 0)

/-- One grid point's update of the pooled sums, at the tiles the point reads: the previous sum plus the rows of
    tile `t` that belong to graph `g`. -/
theorem accStep_apply (c : Dev nD) (t : Fin cfg1.N) (prev : Vec Ideal S64x128 .f32) (g : Fin 64) (d : Fin 128) :
    accStep prev (blk1 V c 0 t) (blk1 V c 1 t) (blk1 V c 2 t) (blk1 V c 3 t) (blk1 V c 4 t) (ix2 g d)
      = prev (ix2 g d) + ∑ r : Fin 5000, oneHot (gidOf V c (rowN (5000 * t.val + r.val))) g
          * hidden2 V c (rowN (5000 * t.val + r.val)) d := by
  unfold accStep
  refine (k1_pay6_apply (blk1 V c 0 t) (blk1 V c 1 t) (blk1 V c 3 t) (blk1 V c 4 t) (blk1 V c 2 t) prev g d).trans ?_
  refine congrArg (prev (ix2 g d) + ·) (Finset.sum_congr rfl fun r _ => ?_)
  unfold hidden2 gidOf
  rw [blk1_2_apply V c t r, blk1_1_apply V c t r, blk1_4_apply V c t d]
  refine congrArg (oneHot _ g * ·) ?_
  refine congrArg₂ (fun a W => denseRow a _ W _) (funext fun k => blk1_0_apply V c t r k) (funext fun k => blk1_3_apply V c t k d)

/-- One grid point's update of the counts, at the tile the point reads: the previous count plus the number of rows of
    tile `t` that belong to graph `g`. -/
theorem cntStep_apply (c : Dev nD) (t : Fin cfg1.N) (prev : Vec Ideal S1x64 .f32) (g : Fin 64) :
    cntStep prev (blk1 V c 2 t) (ix2 0 g)
      = prev (ix2 0 g) + ∑ r : Fin 5000, oneHot (gidOf V c (rowN (5000 * t.val + r.val))) g := by
  unfold cntStep
  refine (k1_pay1_apply (k1_pay5 (blk1 V c 2 t)) prev g).trans ?_
  refine congrArg (prev (ix2 0 g) + ·) (Finset.sum_congr rfl fun r _ => ?_)
  refine (k1_pay5_apply (blk1 V c 2 t) r g).trans ?_
  unfold gidOf
  rw [blk1_2_apply V c t r]

/-- The pooled sums after point `n`: the rows of tiles `0 … n` that belong to the graph. -/
theorem scr1_fst (c : Dev nD) (g : Fin 64) (d : Fin 128) : ∀ (n : ℕ) (hn : n < cfg1.N),
    (scr1 V c n hn).1 (ix2 g d)
      = ∑ t ∈ Finset.range (n + 1), ∑ r : Fin 5000, oneHot (gidOf V c (rowN (5000 * t + r.val))) g
          * hidden2 V c (rowN (5000 * t + r.val)) d
  | 0, hn => by
    unfold scr1
    dsimp only
    rw [accStep_apply V c ⟨0, hn⟩ (k1_pay3 (F := Ideal)) g d, k1_pay3_apply, zero_add, Finset.sum_range_one]
  | n + 1, hn => by
    unfold scr1
    dsimp only
    rw [accStep_apply V c ⟨n + 1, hn⟩ _ g d, scr1_fst c g d n, Finset.sum_range_succ _ (n + 1)]

/-- The counts after point `n`: the number of rows of tiles `0 … n` that belong to the graph. -/
theorem scr1_snd (c : Dev nD) (g : Fin 64) : ∀ (n : ℕ) (hn : n < cfg1.N),
    (scr1 V c n hn).2 (ix2 0 g)
      = ∑ t ∈ Finset.range (n + 1), ∑ r : Fin 5000, oneHot (gidOf V c (rowN (5000 * t + r.val))) g
  | 0, hn => by
    unfold scr1
    dsimp only
    rw [cntStep_apply V c ⟨0, hn⟩ (k1_pay4 (F := Ideal)) g, k1_pay4_apply, zero_add, Finset.sum_range_one]
  | n + 1, hn => by
    unfold scr1
    dsimp only
    rw [cntStep_apply V c ⟨n + 1, hn⟩ _ g, scr1_snd c g n, Finset.sum_range_succ _ (n + 1)]

/-! ## The result array: written back once, after the last point -/

/-- The one write-back of the result (at the last point) writes the tile computed from the accumulators there; the
    result's block is its whole array, so that tile read through the block is the tile. -/
theorem flushed1_7 (c : Dev nD) (t : Fin cfg1.N) (hf : (cfg1.win 7).flush t = true) :
    (dat1 V c).flushed 7 t = ((cfg1.win 7).blk t).view.read (Elt Ideal) (logits1 V c t1_9) := by
  have hN : grid1.N = 10 := N_1
  have ht : t.val < 10 := hN ▸ t.isLt
  have h9 : t.val = 9 := by have := (flush1_7 t).mp hf; omega
  obtain rfl : t = t1_9 := Fin.ext h9
  funext y
  rw [View.read_apply]
  show (cfg1.win 7).cut (grid1.coords t1_9) ((dat1 V c).after 7 t1_9) y
    = logits1 V c t1_9 (((cfg1.win 7).blk t1_9).view.emb y)
  rw [after1_7]
  show logits1 V c t1_9 ((cfg1.win 7).xinj (grid1.coords t1_9) y) = _
  refine congrArg _ ?_
  funext a
  apply Fin.ext
  match a with
  | ⟨0, _⟩ =>
    show (y 0).val = win1_7.index t1_9 0 * 64 + 1 * (y 0).val
    rw [(index1_whole t1_9).2.2.2.2.1]; omega
  | ⟨1, _⟩ =>
    show (y 1).val = win1_7.index t1_9 1 * 8 + 1 * (y 1).val
    rw [(index1_whole t1_9).2.2.2.2.2]; omega

/-- So the result array ends holding the tile computed at the last point. -/
theorem final1_7 (c : Dev nD) : (dat1 V c).arrAt 7 cfg1.N = logits1 V c t1_9 :=
  (dat1 V c).arrAt_eq_of_cover 7 (logits1 V c t1_9) (flushed1_7 V c) fun i =>
    ⟨t1_9, (flush1_7 t1_9).mpr rfl, by
      show i ∈ ((View.whole main_v47).slice (win1_7.rect t1_9)).set
      rw [View.set_slice_whole, Rect.mem_set_unit]
      intro a
      have h0 : (i 0 : Nat) < 64 := (i 0).isLt
      have h1 : (i 1 : Nat) < 8 := (i 1).isLt
      match a with
      | ⟨0, _⟩ =>
        show win1_7.index t1_9 0 * 64 ≤ (i 0 : Nat) ∧ (i 0 : Nat) < win1_7.index t1_9 0 * 64 + 64
        rw [(index1_whole t1_9).2.2.2.2.1]; omega
      | ⟨1, _⟩ =>
        show win1_7.index t1_9 1 * 8 ≤ (i 1 : Nat) ∧ (i 1 : Nat) < win1_7.index t1_9 1 * 8 + 8
        rw [(index1_whole t1_9).2.2.2.2.2]; omega⟩

/-- The result array of the second launch after its write-back, at graph `g`, class `q`. -/
theorem arr1_apply (c : Dev nD) (g : Fin 64) (q : Fin 8) :
    ((dat1 V c).arrAt 7 cfg1.N : S64x8.Idx → EReal) (ix2 g q)
      = ∑ d : Fin 128,
          Ideal.div (∑ n : Fin 50000, oneHot ((V c main_v15 : S50000x1.Idx → BitVec 32) (ix2 n 0)) g * hidden2 V c n d)
            (max (∑ n : Fin 50000, oneHot ((V c main_v15 : S50000x1.Idx → BitVec 32) (ix2 n 0)) g) (Ideal.ofBits .f32 0x3F800000#32))
          * (V c main_arg7 : S128x8.Idx → EReal) (ix2 d q)
        + (V c main_v46 : S1x8.Idx → EReal) (ix2 0 q) := by
  rw [final1_7 V c]
  unfold logits1
  refine (k1_pay2_apply (scr1 V c t1_9.val t1_9.isLt).2 (scr1 V c t1_9.val t1_9.isLt).1 (blk1 V c 5 t1_9) (blk1 V c 6 t1_9) g q).trans ?_
  rw [blk1_6_apply V c t1_9 q]
  refine congrArg (· + _) (Finset.sum_congr rfl fun d _ => ?_)
  rw [blk1_5_apply V c t1_9 d q, scr1_fst V c g d t1_9.val t1_9.isLt, scr1_snd V c g t1_9.val t1_9.isLt]
  show Ideal.div (∑ t ∈ Finset.range 10, ∑ r : Fin 5000, oneHot (gidOf V c (rowN (5000 * t + r.val))) g * hidden2 V c (rowN (5000 * t + r.val)) d)
      (max (∑ t ∈ Finset.range 10, ∑ r : Fin 5000, oneHot (gidOf V c (rowN (5000 * t + r.val))) g) _) * _ = _
  rw [sum_tiles (fun n => oneHot (gidOf V c n) g * hidden2 V c n d), sum_tiles (fun n => oneHot (gidOf V c n) g)]

end Cert.KernelIdeal.HandValue

end
-- ==== Proof.KHost.lean ====
/-
  What the two kernel launches find in their operand arrays, at the ideal instance: each operand array as the host
  operations before the launch leave it, written with the reference program's own stage functions of the arguments
  wherever the two programs apply the same operations (the degree factor, the index columns).
-/
import proofs.«428788_j14774687498490_3_alg».proof.Proof.Walk
import proofs.«428788_j14774687498490_3_alg».proof.Proof.RefRead
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The program's arguments on core `c`, as plain arrays. -/
abbrev argX : (⟨⟨2, ![50000, 128]⟩, .f32⟩ : BufTy).Contents (Elt Ideal) := m ((c.tc : Thread nD τ).loc main_arg0)
abbrev argE : (⟨⟨2, ![2, 1600000]⟩, .i32⟩ : BufTy).Contents (Elt Ideal) := m ((c.tc : Thread nD τ).loc main_arg1)
abbrev argG : (⟨⟨1, ![50000]⟩, .i32⟩ : BufTy).Contents (Elt Ideal) := m ((c.tc : Thread nD τ).loc main_arg2)
abbrev argW1 : (⟨⟨2, ![128, 128]⟩, .f32⟩ : BufTy).Contents (Elt Ideal) := m ((c.tc : Thread nD τ).loc main_arg3)
abbrev argB1 : (⟨⟨1, ![128]⟩, .f32⟩ : BufTy).Contents (Elt Ideal) := m ((c.tc : Thread nD τ).loc main_arg4)
abbrev argW2 : (⟨⟨2, ![128, 128]⟩, .f32⟩ : BufTy).Contents (Elt Ideal) := m ((c.tc : Thread nD τ).loc main_arg5)
abbrev argB2 : (⟨⟨1, ![128]⟩, .f32⟩ : BufTy).Contents (Elt Ideal) := m ((c.tc : Thread nD τ).loc main_arg6)
abbrev argWc : (⟨⟨2, ![128, 8]⟩, .f32⟩ : BufTy).Contents (Elt Ideal) := m ((c.tc : Thread nD τ).loc main_arg7)
abbrev argBc : (⟨⟨1, ![8]⟩, .f32⟩ : BufTy).Contents (Elt Ideal) := m ((c.tc : Thread nD τ).loc main_arg8)

/-! ## One host stretch at a time, from any contents

Each host stretch is a fold of its operations over the buffers' contents; a buffer it writes holds the composed term
of the operations that wrote it, over the contents found in the buffers the stretch only reads. -/

section Stretch
variable {F : FTy → Type} [FloatOps F] (W : Valuation τ sig (Elt F))

/-- The first stretch: the source-index row of the edge list. -/
theorem s0_v1 : (after (hostOps0 (F := F)) W (Proc.devRef .tc main_v1) : (⟨S1600000, .i32⟩ : BufTy).Contents (Elt F))
    = Cert.ReferenceIdeal.RRead.val_main_v1 (F := F) (W (Proc.devRef .tc main_arg1)) := by
  dsimp only [hostOps0]
  after_results
  rfl

/-- The first stretch: the target-index row of the edge list. -/
theorem s0_v3 : (after (hostOps0 (F := F)) W (Proc.devRef .tc main_v3) : (⟨S1600000, .i32⟩ : BufTy).Contents (Elt F))
    = Cert.ReferenceIdeal.RRead.val_main_v3 (F := F) (W (Proc.devRef .tc main_arg1)) := by
  dsimp only [hostOps0]
  after_results
  rfl

/-- The first stretch: "the in-degree is positive". -/
theorem s0_v9 : (after (hostOps0 (F := F)) W (Proc.devRef .tc main_v9) : (⟨S50000, .i1⟩ : BufTy).Contents (Elt F))
    = Cert.ReferenceIdeal.RRead.val_main_v9 (F := F) (W (Proc.devRef .tc main_arg1)) := by
  dsimp only [hostOps0]
  after_results
  rfl

/-- The first stretch: the reciprocal square root of the in-degree, at least one. -/
theorem s0_v12 : (after (hostOps0 (F := F)) W (Proc.devRef .tc main_v12) : (⟨S50000, .f32⟩ : BufTy).Contents (Elt F))
    = Cert.ReferenceIdeal.RRead.val_main_v12 (F := F) (W (Proc.devRef .tc main_arg1)) := by
  dsimp only [hostOps0]
  after_results
  rfl

/-- The first stretch: the zero the degree factor takes where the in-degree is zero. -/
theorem s0_cst3 : (after (hostOps0 (F := F)) W (Proc.devRef .tc main_cst_3) : (⟨S_, .f32⟩ : BufTy).Contents (Elt F))
    = Cert.ReferenceIdeal.RRead.val_main_cst_3 (F := F) := by
  dsimp only [hostOps0]
  after_results
  rfl

/-- The second stretch: the select that makes the degree factor. -/
theorem s1_v13 : (after (hostOps0_1 (F := F)) W (Proc.devRef .tc main_v13) : (⟨S50000, .f32⟩ : BufTy).Contents (Elt F))
    = select (W (Proc.devRef .tc main_v9)) (W (Proc.devRef .tc main_v12))
        (broadcastInDim S50000 ![] bcast_S_S50000 (id (W (Proc.devRef .tc main_cst_3) : (⟨S_, .f32⟩ : BufTy).Contents (Elt F)))) := by
  dsimp only [hostOps0_1]
  after_results
  rfl

end Stretch

section Stretch23
variable {F : FTy → Type} [FloatOps F] (W : Valuation τ sig (Elt F))

/-- The wrap of a negative row index, as the host applies it to a whole row of indices, then as a column. -/
abbrev host_wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- The third stretch: the degree factor as a column. -/
theorem s2_v14 : (after (hostOps0_2 (F := F)) W (Proc.devRef .tc main_v14) : (⟨S50000x1, .f32⟩ : BufTy).Contents (Elt F))
    = shapeCast S50000x1 (W (Proc.devRef .tc main_v13) : (⟨S50000, .f32⟩ : BufTy).Contents (Elt F)) shapeCasts_S50000_S50000x1 := by
  dsimp only [hostOps0_2]
  after_results
  rfl

/-- The third stretch: the graph ids as a column. -/
theorem s2_v15 : (after (hostOps0_2 (F := F)) W (Proc.devRef .tc main_v15) : (⟨S50000x1, .i32⟩ : BufTy).Contents (Elt F))
    = shapeCast S50000x1 (W (Proc.devRef .tc main_arg2) : (⟨S50000, .i32⟩ : BufTy).Contents (Elt F)) shapeCasts_S50000_S50000x1 := by
  dsimp only [hostOps0_2]
  after_results
  rfl

/-- The third stretch: the first layer's bias as a row. -/
theorem s2_v31 : (after (hostOps0_2 (F := F)) W (Proc.devRef .tc main_v31) : (⟨S1x128, .f32⟩ : BufTy).Contents (Elt F))
    = shapeCast S1x128 (W (Proc.devRef .tc main_arg4) : (⟨S128, .f32⟩ : BufTy).Contents (Elt F)) shapeCasts_S128_S1x128 := by
  dsimp only [hostOps0_2]
  after_results
  rfl

/-- The third stretch: the scatter-add by target of the gathered rows of the features times the degree factor. -/
theorem s2_v30 : (after (hostOps0_2 (F := F)) W (Proc.devRef .tc main_v30) : (⟨S50000x128, .f32⟩ : BufTy).Contents (Elt F))
    = Host.scatterAdd scatter_S50000x128_S1600000x1_S1600000x128_1_0_0_1
        (broadcastInDim S50000x128 ![] bcast_S_S50000x128 (constant S_ .f32 0x00000000#32))
        (broadcastInDim S1600000x1 ![0] bcast_S1600000_S1600000x1_0 (W (Proc.devRef .tc main_v3) : (⟨S1600000, .i32⟩ : BufTy).Contents (Elt F)))
        (extf .f32 (Host.gather gather_S50000x128_S1600000x1_S1600000x128_1_0_n_n_0_1_1128
          (truncf .bf16 (mulf (W (Proc.devRef .tc main_arg0) : (⟨S50000x128, .f32⟩ : BufTy).Contents (Elt F))
            (broadcastInDim S50000x128 ![0, 1] bcast_S50000x1_S50000x128_0_1
              (broadcastInDim S50000x1 ![0] bcast_S50000_S50000x1_0 (W (Proc.devRef .tc main_v13) : (⟨S50000, .f32⟩ : BufTy).Contents (Elt F))))) bitsLt_bf16_f32)
          (host_wrapCol (W (Proc.devRef .tc main_v1)))) bitsLt_bf16_f32) := by
  dsimp only [hostOps0_2]
  after_results_simp

/-- The fourth stretch: the scatter-add by target of the gathered rows of the first launch's output. -/
theorem s3_v44 : (after (hostOps1 (F := F)) W (Proc.devRef .tc main_v44) : (⟨S50000x128, .f32⟩ : BufTy).Contents (Elt F))
    = Host.scatterAdd scatter_S50000x128_S1600000x1_S1600000x128_1_0_0_1
        (broadcastInDim S50000x128 ![] bcast_S_S50000x128 (constant S_ .f32 0x00000000#32))
        (broadcastInDim S1600000x1 ![0] bcast_S1600000_S1600000x1_0 (W (Proc.devRef .tc main_v3) : (⟨S1600000, .i32⟩ : BufTy).Contents (Elt F)))
        (extf .f32 (Host.gather gather_S50000x128_S1600000x1_S1600000x128_1_0_n_n_0_1_1128
          (truncf .bf16 (W (Proc.devRef .tc main_v32) : (⟨S50000x128, .f32⟩ : BufTy).Contents (Elt F)) bitsLt_bf16_f32)
          (host_wrapCol (W (Proc.devRef .tc main_v1)))) bitsLt_bf16_f32) := by
  dsimp only [hostOps1]
  after_results_simp

/-- The fourth stretch: the second layer's bias as a row. -/
theorem s3_v45 : (after (hostOps1 (F := F)) W (Proc.devRef .tc main_v45) : (⟨S1x128, .f32⟩ : BufTy).Contents (Elt F))
    = shapeCast S1x128 (W (Proc.devRef .tc main_arg6) : (⟨S128, .f32⟩ : BufTy).Contents (Elt F)) shapeCasts_S128_S1x128 := by
  dsimp only [hostOps1]
  after_results
  rfl

/-- The fourth stretch: the classifier's bias as a row. -/
theorem s3_v46 : (after (hostOps1 (F := F)) W (Proc.devRef .tc main_v46) : (⟨S1x8, .f32⟩ : BufTy).Contents (Elt F))
    = shapeCast S1x8 (W (Proc.devRef .tc main_arg8) : (⟨S8, .f32⟩ : BufTy).Contents (Elt F)) shapeCasts_S8_S1x8 := by
  dsimp only [hostOps1]
  after_results
  rfl

end Stretch23

/-! ## The boundaries' contents at the buffers the launches' operands are made of -/

/-- After the first stretch: the source-index row, the target-index row, the positivity of the in-degree, its
    reciprocal square root and the zero are the reference's stage functions of the edge list. -/
theorem host_V1_v1 : (Gen.V1 m c (Proc.devRef .tc main_v1) : (⟨S1600000, .i32⟩ : BufTy).Contents (Elt Ideal))
    = Cert.ReferenceIdeal.RRead.val_main_v1 (F := Ideal) (argE m c) := s0_v1 (Gen.V0 m c)
theorem host_V1_v3 : (Gen.V1 m c (Proc.devRef .tc main_v3) : (⟨S1600000, .i32⟩ : BufTy).Contents (Elt Ideal))
    = Cert.ReferenceIdeal.RRead.val_main_v3 (F := Ideal) (argE m c) := s0_v3 (Gen.V0 m c)
theorem host_V1_v9 : (Gen.V1 m c (Proc.devRef .tc main_v9) : (⟨S50000, .i1⟩ : BufTy).Contents (Elt Ideal))
    = Cert.ReferenceIdeal.RRead.val_main_v9 (F := Ideal) (argE m c) := s0_v9 (Gen.V0 m c)
theorem host_V1_v12 : (Gen.V1 m c (Proc.devRef .tc main_v12) : (⟨S50000, .f32⟩ : BufTy).Contents (Elt Ideal))
    = Cert.ReferenceIdeal.RRead.val_main_v12 (F := Ideal) (argE m c) := s0_v12 (Gen.V0 m c)
theorem host_V1_cst3 : (Gen.V1 m c (Proc.devRef .tc main_cst_3) : (⟨S_, .f32⟩ : BufTy).Contents (Elt Ideal))
    = Cert.ReferenceIdeal.RRead.val_main_cst_3 (F := Ideal) := s0_cst3 (Gen.V0 m c)

/-- After the second stretch the degree factor's buffer holds the reference's degree factor of the edge list. -/
theorem host_V2_v13 : (Gen.V2 m c (Proc.devRef .tc main_v13) : (⟨S50000, .f32⟩ : BufTy).Contents (Elt Ideal))
    = Cert.ReferenceIdeal.RRead.val_main_v13 (F := Ideal) (argE m c) :=
  (s1_v13 (Gen.V1 m c)).trans (by rw [host_V1_v9 m c, host_V1_v12 m c, host_V1_cst3 m c]; rfl)

/-- The index rows are not written again before the first launch, -/
theorem host_V2_v1 : (Gen.V2 m c (Proc.devRef .tc main_v1) : (⟨S1600000, .i32⟩ : BufTy).Contents (Elt Ideal))
    = Cert.ReferenceIdeal.RRead.val_main_v1 (F := Ideal) (argE m c) := (Gen.V2_of m c main_v1 (by decide)).trans (host_V1_v1 m c)
theorem host_V2_v3 : (Gen.V2 m c (Proc.devRef .tc main_v3) : (⟨S1600000, .i32⟩ : BufTy).Contents (Elt Ideal))
    = Cert.ReferenceIdeal.RRead.val_main_v3 (F := Ideal) (argE m c) := (Gen.V2_of m c main_v3 (by decide)).trans (host_V1_v3 m c)
theorem host_V3_v1 : (Gen.V3 m c (Proc.devRef .tc main_v1) : (⟨S1600000, .i32⟩ : BufTy).Contents (Elt Ideal))
    = Cert.ReferenceIdeal.RRead.val_main_v1 (F := Ideal) (argE m c) := (Gen.V3_of m c main_v1 (by decide)).trans (host_V2_v1 m c)
theorem host_V3_v3 : (Gen.V3 m c (Proc.devRef .tc main_v3) : (⟨S1600000, .i32⟩ : BufTy).Contents (Elt Ideal))
    = Cert.ReferenceIdeal.RRead.val_main_v3 (F := Ideal) (argE m c) := (Gen.V3_of m c main_v3 (by decide)).trans (host_V2_v3 m c)
/-- nor by the first launch, whose operands they are not. -/
theorem host_exit0_v1 : (exit0 m c (Proc.devRef .tc main_v1) : (⟨S1600000, .i32⟩ : BufTy).Contents (Elt Ideal))
    = Cert.ReferenceIdeal.RRead.val_main_v1 (F := Ideal) (argE m c) := (exit0_of_ne m c main_v1 (by decide)).trans (host_V3_v1 m c)
theorem host_exit0_v3 : (exit0 m c (Proc.devRef .tc main_v3) : (⟨S1600000, .i32⟩ : BufTy).Contents (Elt Ideal))
    = Cert.ReferenceIdeal.RRead.val_main_v3 (F := Ideal) (argE m c) := (exit0_of_ne m c main_v3 (by decide)).trans (host_V3_v3 m c)

/-- An argument's buffer is as launched until the first launch, -/
theorem host_V2_arg (r : Ref sig .tc) (h1 : r ∉ hostOps0_1_W) (h0 : r ∉ hostOps0_W) :
    Gen.V2 m c (Proc.devRef .tc r) = m ((c : Thread nD τ).loc r) :=
  (Gen.V2_of m c r h1).trans <| (Gen.V1_of m c r h0).trans rfl
/-- and after it, when it is no operand of the first launch. -/
theorem host_exit0_arg (r : Ref sig .tc) (hw : ∀ w, Pipeline.arrRef spec0 w ≠ r) (h2 : r ∉ hostOps0_2_W) (h1 : r ∉ hostOps0_1_W)
    (h0 : r ∉ hostOps0_W) : exit0 m c (Proc.devRef .tc r) = m ((c : Thread nD τ).loc r) :=
  (exit0_of_ne m c r hw).trans (V3_launch m c r h2 h1 h0)

/-! ## The first launch's operands -/

/-- The degree-factor column: the reference's factor of the edge list, as a column. -/
theorem entry0_dis :
    (entry0 m c main_v14 : S50000x1.Idx → EReal)
      = shapeCast S50000x1 (Cert.ReferenceIdeal.RRead.val_main_v13 (F := Ideal) (argE m c)) shapeCasts_S50000_S50000x1 :=
  (s2_v14 (Gen.V2 m c)).trans (by rw [host_V2_v13 m c])

/-- The aggregated rows: scatter-add by target of the gathered rows of `x · dis`. -/
theorem entry0_agg :
    (entry0 m c main_v30 : S50000x128.Idx → EReal)
      = (Host.scatterAdd (F := Ideal) (φ := .f32) scatter_S50000x128_S1600000x1_S1600000x128_1_0_0_1
          (Cert.ReferenceIdeal.RRead.val_main_v39 (F := Ideal)) (Cert.ReferenceIdeal.RRead.val_main_v40 (F := Ideal) (argE m c))
          (Host.gather gather_S50000x128_S1600000x1_S1600000x128_1_0_n_n_0_1_1128
            (mulf (F := Ideal) (φ := .f32) (argX m c)
              (broadcastInDim S50000x128 ![0, 1] bcast_S50000x1_S50000x128_0_1
                (broadcastInDim S50000x1 ![0] bcast_S50000_S50000x1_0 (Cert.ReferenceIdeal.RRead.val_main_v13 (F := Ideal) (argE m c)))))
            (Cert.ReferenceIdeal.RRead.val_main_v34 (F := Ideal) (argE m c))) : S50000x128.Idx → EReal) :=
  (s2_v30 (Gen.V2 m c)).trans (by
    rw [host_V2_v3 m c, host_V2_v13 m c, host_V2_v1 m c, host_V2_arg m c main_arg0 (by decide) (by decide)]
    rfl)

theorem entry0_w : (entry0 m c main_arg3 : S128x128.Idx → EReal) = argW1 m c :=
  V3_launch m c main_arg3 (by decide) (by decide) (by decide)

theorem entry0_b :
    (entry0 m c main_v31 : S1x128.Idx → EReal) = shapeCast S1x128 (argB1 m c) shapeCasts_S128_S1x128 :=
  (s2_v31 (Gen.V2 m c)).trans (by rw [host_V2_arg m c main_arg4 (by decide) (by decide)])

/-! ## The second launch's operands -/

/-- The degree-factor column is the one the first launch found. -/
theorem entry1_dis : (entry1 m c main_v14 : S50000x1.Idx → EReal) = (entry0 m c main_v14 : S50000x1.Idx → EReal) :=
  (mid1_of m c main_v14 (by decide)).trans (exit0_in m c 1 rfl)

/-- The aggregated rows of the second layer: scatter-add by target of the gathered rows of the first launch's output. -/
theorem entry1_agg :
    (entry1 m c main_v44 : S50000x128.Idx → EReal)
      = (Host.scatterAdd (F := Ideal) (φ := .f32) scatter_S50000x128_S1600000x1_S1600000x128_1_0_0_1
          (Cert.ReferenceIdeal.RRead.val_main_v57 (F := Ideal)) (Cert.ReferenceIdeal.RRead.val_main_v58 (F := Ideal) (argE m c))
          (Host.gather gather_S50000x128_S1600000x1_S1600000x128_1_0_n_n_0_1_1128
            (exit0 m c (Proc.devRef .tc main_v32) : S50000x128.Idx → EReal)
            (Cert.ReferenceIdeal.RRead.val_main_v52 (F := Ideal) (argE m c))) : S50000x128.Idx → EReal) :=
  (s3_v44 (exit0 m c)).trans (by
    rw [host_exit0_v3 m c, host_exit0_v1 m c]
    rfl)

theorem entry1_gid :
    (entry1 m c main_v15 : S50000x1.Idx → BitVec 32) = shapeCast S50000x1 (argG m c) shapeCasts_S50000_S50000x1 :=
  (mid1_of m c main_v15 (by decide)).trans <| (exit0_of_ne m c main_v15 (by decide)).trans <|
    (s2_v15 (Gen.V2 m c)).trans (by rw [host_V2_arg m c main_arg2 (by decide) (by decide)])

theorem entry1_w : (entry1 m c main_arg5 : S128x128.Idx → EReal) = argW2 m c :=
  (mid1_of m c main_arg5 (by decide)).trans (host_exit0_arg m c main_arg5 (by decide) (by decide) (by decide) (by decide))

theorem entry1_b :
    (entry1 m c main_v45 : S1x128.Idx → EReal) = shapeCast S1x128 (argB2 m c) shapeCasts_S128_S1x128 :=
  (s3_v45 (exit0 m c)).trans (by rw [host_exit0_arg m c main_arg6 (by decide) (by decide) (by decide) (by decide)])

theorem entry1_wc : (entry1 m c main_arg7 : S128x8.Idx → EReal) = argWc m c :=
  (mid1_of m c main_arg7 (by decide)).trans (host_exit0_arg m c main_arg7 (by decide) (by decide) (by decide) (by decide))

theorem entry1_bc :
    (entry1 m c main_v46 : S1x8.Idx → EReal) = shapeCast S1x8 (argBc m c) shapeCasts_S8_S1x8 :=
  (s3_v46 (exit0 m c)).trans (by rw [host_exit0_arg m c main_arg8 (by decide) (by decide) (by decide) (by decide)])

end Cert.KernelIdeal.HandValue

end
-- ==== Proof.RefRows.lean ====
/-
  The reference program read at one element, at the ideal instance: its degree factor is a non-negative finite
  number; its index columns are the same function of the edge list wherever it recomputes them; each layer's
  aggregated rows are a scatter-add of gathered rows scaled by the product of the two degree factors; each hidden row
  is the rectified affine image of the aggregated row; the result is the classifier head of the mean-pooled hidden
  rows, the pooling written as indicator-weighted sums over all nodes.
-/
import proofs.«428788_j14774687498490_3_alg».proof.Proof.RefRead
import proofs.«428788_j14774687498490_3_alg».proof.Proof.ScaleLaw
import Idealize.ShloMosaic.Lib.IdealHost

set_option maxRecDepth 16384

noncomputable section

namespace Cert.ReferenceIdeal.HandValue

open Cert.ReferenceIdeal Cert.ReferenceIdeal.RRead
open Idealize.ShloMosaic Idealize.ShloMosaic.ValueIdx Cert.Proof.Index Cert.Proof.Law
open scoped BigOperators

variable (x0 : (⟨S50000x128, .f32⟩ : BufTy).Contents (Elt Ideal)) (x1 : (⟨S2x1600000, .i32⟩ : BufTy).Contents (Elt Ideal)) (x2 : (⟨S50000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x8, .f32⟩ : BufTy).Contents (Elt Ideal)) (x8 : (⟨S8, .f32⟩ : BufTy).Contents (Elt Ideal))

/-- At the ideal instance the host's accumulating scatter is the exact sum of the updates landing on each element. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- The degree factor of a node is non-negative and finite: zero, or the reciprocal square root of something at least one. -/
theorem dis_range (n : S50000.Idx) :
    0 ≤ val_main_v13 (F := Ideal) x1 n ∧ val_main_v13 (F := Ideal) x1 n ≠ ⊤ := by
  rw [val_main_v13_apply]
  unfold Scalar.select
  split
  · -- the reciprocal square root of the larger of the degree and one
    rw [val_main_v12_apply, val_main_v11_apply, val_main_v10_apply, val_main_cst_2_apply]
    simp only [Ideal.hostUnary_rsqrt_def, Ideal.maximumf_def, Ideal.ofBits_def, Ideal.ofBits_one_f32]
    exact rsqrt_of_one_le _ (le_max_right _ _)
  · -- zero
    rw [val_main_call0_v1_apply, val_main_call0_v0_apply, val_main_cst_3_apply]
    simp only [Ideal.ofBits_def, Ideal.ofBits_zero_f32]
    exact ⟨le_refl _, EReal.zero_ne_top⟩

/-- The wrapped source-index column is one function of the edge list, each time the program recomputes it. -/
theorem src_cols : val_main_v19 (F := Ideal) x1 = val_main_v34 (F := Ideal) x1 ∧ val_main_v52 (F := Ideal) x1 = val_main_v34 (F := Ideal) x1 := by
  exact ⟨rfl, rfl⟩

/-- So is the target-index column. -/
theorem dst_cols : val_main_v58 (F := Ideal) x1 = val_main_v40 (F := Ideal) x1 := by
  rfl

/-- Where the target index of edge `e` reads as node `n` in range, its wrapped form reads row `n`. -/
theorem wrap_dst (e : Fin 1600000) (n : Fin 50000) (h : (val_main_v40 (F := Ideal) x1 (ix2 e 0)).toInt = (n.val : Int)) :
    clampRow (val_main_v26 (F := Ideal) x1 (ix2 e 0)) = n := by
  rw [val_main_v40_apply] at h
  rw [val_main_v26_apply, val_main_v25_apply, val_main_v22_apply, val_main_v24_apply, val_main_v21_apply,
    val_main_v23_apply, val_main_c_5_apply, val_main_c_6_apply]
  have hi : idx_main_v26 (ix2 e 0) = idx_main_v40 (ix2 e 0) := rfl
  rw [hi]
  exact clampRow_wrap_of_toInt _ n h

/-- The tables the scatter-adds start from are zero. -/
theorem zero_v39 : val_main_v39 (F := Ideal) = fun _ => (0 : EReal) := by
  funext i
  rw [val_main_v39_apply, val_main_cst_9_apply]
  exact Ideal.ofBits_zero_f32
theorem zero_v57 : val_main_v57 (F := Ideal) = fun _ => (0 : EReal) := by
  funext i
  rw [val_main_v57_apply, val_main_cst_12_apply]
  exact Ideal.ofBits_zero_f32

/-- The edge weight column, as the product of the two gathered degree factors, at update row `j`. -/
def edgeScale (j : S1600000x128.Idx) : EReal :=
  Host.gather gather_S50000_S1600000x1_S1600000_n_0_n_n_0_1_1 (val_main_v13 (F := Ideal) x1) (val_main_v34 (F := Ideal) x1) (ix1 ⟨(j 0).val, idx2_lt0 j⟩)
    * Host.gather gather_S50000_S1600000x1_S1600000_n_0_n_n_0_1_1 (val_main_v13 (F := Ideal) x1) (val_main_v26 (F := Ideal) x1) (ix1 ⟨(j 0).val, idx2_lt0 j⟩)

/-- First layer, aggregated rows. -/
theorem a1_apply (n : Fin 50000) (k : Fin 128) :
    val_main_v41 (F := Ideal) x0 x1 (ix2 n k)
      = Ideal.hostScatterAdd scatter_S50000x128_S1600000x1_S1600000x128_1_0_0_1 (fun _ => 0) (val_main_v40 (F := Ideal) x1)
          (fun j => Host.gather gather_S50000x128_S1600000x1_S1600000x128_1_0_n_n_0_1_1128 x0 (val_main_v34 (F := Ideal) x1) j * edgeScale x1 j)
          (ix2 n k) := by
  have hupd : val_main_v38 (F := Ideal) x0 x1
      = fun j => Host.gather gather_S50000x128_S1600000x1_S1600000x128_1_0_n_n_0_1_1128 x0 (val_main_v34 (F := Ideal) x1) j * edgeScale x1 j := by
    funext j
    have hi : idx_main_v36 (idx_main_v37 j) = ix1 ⟨(j 0).val, idx2_lt0 j⟩ := funext fun a => by
      match a with | ⟨0, _⟩ => rfl
    rw [val_main_v38_apply, val_main_v37_apply, val_main_v36_apply, val_main_v28_apply, hi]
    unfold val_main_v35 val_main_v20 val_main_v27 edgeScale
    rw [(src_cols x1).1]
    rfl
  unfold val_main_v41
  rw [scatterAdd_ideal, zero_v39, hupd]

/-- First layer, hidden rows. -/
theorem h1_apply (n : Fin 50000) (j : Fin 128) :
    val_main_v46 (F := Ideal) x0 x1 x3 x4 (ix2 n j)
      = max (∑ k : Fin 128, val_main_v41 (F := Ideal) x0 x1 (ix2 n k) * x3 (ix2 k j) + x4 (ix1 j)) 0 := by
  rw [val_main_v46_apply, val_main_v45_apply, val_main_v42_apply, val_main_v44_apply, val_main_v43_apply,
    val_main_call1_v0_apply, val_main_call1_cst_apply]
  have hl : ∀ k : Fin 128, lidx_main_v42 (ix2 n j) k = ix2 n k := fun k => funext fun a => by
    match a with | ⟨0, _⟩ => rfl | ⟨1, _⟩ => rfl
  have hr : ∀ k : Fin 128, ridx_main_v42 (ix2 n j) k = ix2 k j := fun k => funext fun a => by
    match a with | ⟨0, _⟩ => rfl | ⟨1, _⟩ => rfl
  have hb : idx_main_v43 (idx_main_v44 (ix2 n j)) = ix1 j := funext fun a => by
    match a with | ⟨0, _⟩ => rfl
  simp only [hl, hr, hb, Ideal.maximumf_def, Ideal.addf_def, Ideal.ofBits_def, Ideal.ofBits_zero_f32]

/-- Second layer, aggregated rows. -/
theorem a2_apply (n : Fin 50000) (k : Fin 128) :
    val_main_v59 (F := Ideal) x0 x1 x3 x4 (ix2 n k)
      = Ideal.hostScatterAdd scatter_S50000x128_S1600000x1_S1600000x128_1_0_0_1 (fun _ => 0) (val_main_v40 (F := Ideal) x1)
          (fun j => Host.gather gather_S50000x128_S1600000x1_S1600000x128_1_0_n_n_0_1_1128 (val_main_v46 (F := Ideal) x0 x1 x3 x4) (val_main_v34 (F := Ideal) x1) j * edgeScale x1 j)
          (ix2 n k) := by
  have hupd : val_main_v56 (F := Ideal) x0 x1 x3 x4
      = fun j => Host.gather gather_S50000x128_S1600000x1_S1600000x128_1_0_n_n_0_1_1128 (val_main_v46 (F := Ideal) x0 x1 x3 x4) (val_main_v34 (F := Ideal) x1) j * edgeScale x1 j := by
    funext j
    have hi : idx_main_v54 (idx_main_v55 j) = ix1 ⟨(j 0).val, idx2_lt0 j⟩ := funext fun a => by
      match a with | ⟨0, _⟩ => rfl
    rw [val_main_v56_apply, val_main_v55_apply, val_main_v54_apply, val_main_v28_apply, hi]
    unfold val_main_v53 val_main_v20 val_main_v27 edgeScale
    rw [(src_cols x1).1, (src_cols x1).2]
    rfl
  unfold val_main_v59
  rw [scatterAdd_ideal, zero_v57, dst_cols, hupd]

/-- Second layer, hidden rows. -/
theorem h2_apply (n : Fin 50000) (d : Fin 128) :
    val_main_v64 (F := Ideal) x0 x1 x3 x4 x5 x6 (ix2 n d)
      = max (∑ k : Fin 128, val_main_v59 (F := Ideal) x0 x1 x3 x4 (ix2 n k) * x5 (ix2 k d) + x6 (ix1 d)) 0 := by
  rw [val_main_v64_apply, val_main_v63_apply, val_main_v60_apply, val_main_v62_apply, val_main_v61_apply,
    val_main_call2_v0_apply, val_main_call2_cst_apply]
  have hl : ∀ k : Fin 128, lidx_main_v60 (ix2 n d) k = ix2 n k := fun k => funext fun a => by
    match a with | ⟨0, _⟩ => rfl | ⟨1, _⟩ => rfl
  have hr : ∀ k : Fin 128, ridx_main_v60 (ix2 n d) k = ix2 k d := fun k => funext fun a => by
    match a with | ⟨0, _⟩ => rfl | ⟨1, _⟩ => rfl
  have hb : idx_main_v61 (idx_main_v62 (ix2 n d)) = ix1 d := funext fun a => by
    match a with | ⟨0, _⟩ => rfl
  simp only [hl, hr, hb, Ideal.maximumf_def, Ideal.addf_def, Ideal.ofBits_def, Ideal.ofBits_zero_f32]

/-- The tables the pooling and counting scatter-adds start from are zero, and the counted vector is all ones. -/
theorem zero_v69 : val_main_v69 (F := Ideal) = fun _ => (0 : EReal) := by
  funext i
  rw [val_main_v69_apply, val_main_cst_15_apply]
  exact Ideal.ofBits_zero_f32
theorem zero_v66 : val_main_v66 (F := Ideal) = fun _ => (0 : EReal) := by
  funext i
  rw [val_main_v66_apply, val_main_cst_14_apply]
  exact Ideal.ofBits_zero_f32
theorem ones_v65 : val_main_v65 (F := Ideal) = fun _ => (1 : EReal) := by
  funext i
  rw [val_main_v65_apply, val_main_cst_13_apply]
  exact Ideal.ofBits_one_f32

/-- The result at graph `g`, class `q`. -/
theorem out_apply (g : Fin 64) (q : Fin 8) :
    val_main_v80 (F := Ideal) x0 x1 x2 x3 x4 x5 x6 x7 x8 (ix2 g q)
      = ∑ d : Fin 128,
          Ideal.div (∑ n : Fin 50000, oneHot (x2 (ix1 n)) g * val_main_v64 (F := Ideal) x0 x1 x3 x4 x5 x6 (ix2 n d))
            (max (∑ n : Fin 50000, oneHot (x2 (ix1 n)) g) (Ideal.ofBits .f32 0x3F800000#32))
          * x7 (ix2 d q)
        + x8 (ix1 q) := by
  have hl : ∀ k : Fin 128, lidx_main_v77 (ix2 g q) k = ix2 g k := fun k => funext fun a => by
    match a with | ⟨0, _⟩ => rfl | ⟨1, _⟩ => rfl
  have hr : ∀ k : Fin 128, ridx_main_v77 (ix2 g q) k = ix2 k q := fun k => funext fun a => by
    match a with | ⟨0, _⟩ => rfl | ⟨1, _⟩ => rfl
  have hb : idx_main_v78 (idx_main_v79 (ix2 g q)) = ix1 q := funext fun a => by
    match a with | ⟨0, _⟩ => rfl
  -- the pooled sums of graph `g`, column by column
  have hpool : ∀ d : Fin 128, val_main_v71 (F := Ideal) x0 x1 x2 x3 x4 x5 x6 (ix2 g d)
      = ∑ n : Fin 50000, oneHot (x2 (ix1 n)) g * val_main_v64 (F := Ideal) x0 x1 x3 x4 x5 x6 (ix2 n d) := by
    intro d
    unfold val_main_v71
    rw [scatterAdd_ideal, zero_v69, pool_scatter]
    refine Finset.sum_congr rfl fun n _ => ?_
    have hi : idx_main_v70 (ix2 n 0) = ix1 n := funext fun a => by
      match a with | ⟨0, _⟩ => rfl
    rw [val_main_v70_apply, hi]
  -- the number of nodes of graph `g`
  have hcount : val_main_v68 (F := Ideal) x2 (ix1 g) = ∑ n : Fin 50000, oneHot (x2 (ix1 n)) g := by
    unfold val_main_v68
    rw [scatterAdd_ideal, zero_v66, ones_v65, count_scatter]
    refine Finset.sum_congr rfl fun n _ => ?_
    have hi : idx_main_v67 (ix2 n 0) = ix1 n := funext fun a => by
      match a with | ⟨0, _⟩ => rfl
    rw [val_main_v67_apply, hi]
  have hden : ∀ d : Fin 128, val_main_v75 (F := Ideal) x2 (ix2 g d)
      = max (∑ n : Fin 50000, oneHot (x2 (ix1 n)) g) (Ideal.ofBits .f32 0x3F800000#32) := by
    intro d
    have hi : idx_main_v74 (idx_main_v75 (ix2 g d)) = ix1 g := funext fun a => by
      match a with | ⟨0, _⟩ => rfl
    rw [val_main_v75_apply, val_main_v74_apply, hi, val_main_v73_apply, val_main_v72_apply, val_main_cst_16_apply, hcount]
    simp only [Ideal.maximumf_def, Ideal.ofBits_def]
  rw [val_main_v80_apply, val_main_v77_apply, val_main_v79_apply, val_main_v78_apply, hb]
  simp only [hl, hr, val_main_v76_apply, hpool, hden, Ideal.hostDivf_def, Ideal.addf_def]

end Cert.ReferenceIdeal.HandValue

end
-- ==== Proof.BridgeK.lean ====
/-
  The two layers of the kernel program against the reference's, at the ideal instance. Layer one: the first kernel
  launch's output row is the reference's hidden row times the node's degree factor. Layer two: the hidden row the
  second launch computes from its operands is the reference's second hidden row. Both by the layer law: the degree
  factor of the target node, applied after the scatter-add, distributes over the sum because it is non-negative and
  finite.
-/
import proofs.«428788_j14774687498490_3_alg».proof.Proof.Walk
import proofs.«428788_j14774687498490_3_alg».proof.Proof.KVal0
import proofs.«428788_j14774687498490_3_alg».proof.Proof.KVal1
import proofs.«428788_j14774687498490_3_alg».proof.Proof.KHost
import proofs.«428788_j14774687498490_3_alg».proof.Proof.RefRows
import proofs.«428788_j14774687498490_3_alg».proof.Proof.ScaleLaw
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.Proof.Index Cert.Proof.Law
open scoped BigOperators

/-- An `[a]` array cast to the column `[a, 1]` reads, at `(i, u)`, the operand at `i`, whatever the unit coordinate `u`. -/
theorem col_apply {α : Type} {a : ℕ} (x : (⟨1, ![a]⟩ : Shape).Idx → α) (h : (⟨1, ![a]⟩ : Shape).ShapeCasts ⟨2, ![a, 1]⟩) (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A table of rows times a per-row factor spread along the columns (the factor cast to a column, the column spread
    over the lanes) reads, at an index, the table's element times the factor of the index's row. -/
theorem scaled_apply (x : S50000x128.Idx → EReal) (dis : S50000.Idx → EReal)
    (h1 : S50000.BroadcastsInDim S50000x1 (![0] : Fin 1 → Fin S50000x1.rank))
    (h2 : S50000x1.BroadcastsInDim S50000x128 (![0, 1] : Fin 2 → Fin S50000x128.rank)) (i : S50000x128.Idx) :
    mulf (F := Ideal) (φ := .f32) x (broadcastInDim S50000x128 ![0, 1] h2 (broadcastInDim S50000x1 ![0] h1 dis)) i
      = x i * dis (ix1 ⟨(i 0).val, idx2_lt0 i⟩) := by
  rw [mulf_apply]
  congr 1
  rw [broadcastInDim_apply _ h2 _ i (ix2 ⟨(i 0).val, idx2_lt0 i⟩ (0 : Fin 1)) (fun a => by
    match a with
    | ⟨0, _⟩ => rfl
    | ⟨1, _⟩ => rfl)]
  exact broadcastInDim_apply _ h1 dis _ (ix1 ⟨(i 0).val, idx2_lt0 i⟩) (fun a => by
    match a with
    | ⟨0, _⟩ => rfl)

/-- The host's accumulating scatter at the ideal instance is the exact sum. -/
theorem scatterAdd_ideal {φ : FTy} {s si u : Shape} {w : Nat} (d : ScatterDims s si u) (x : s.Idx → EReal) (idx : IVec si w) (upd : u.Idx → EReal) :
    Host.scatterAdd (F := Ideal) (φ := φ) d x idx upd = Ideal.hostScatterAdd d x idx upd := rfl

/-- THE LAYER LAW AT THE PROGRAM'S TERMS. For node features `h` and the edge list `x1`: the scatter-add by target, from
    the zero table, of the gathered rows of `h` scaled by the source's factor, scaled after the sum by the target's
    factor, is the scatter-add of the gathered rows of `h` scaled by the product of the two factors. -/
theorem layer_scaled (h : Cert.ReferenceIdeal.S50000x128.Idx → EReal) (x1 : (⟨Cert.ReferenceIdeal.S2x1600000, .i32⟩ : BufTy).Contents (Elt Ideal))
    (Z T : Cert.ReferenceIdeal.S50000x128.Idx → EReal) (hZ : Z = fun _ => 0)
    (hT : T = fun i => h i * Cert.ReferenceIdeal.RRead.val_main_v13 (F := Ideal) x1 (ix1 ⟨(i 0).val, idx2_lt0 i⟩))
    (n : Fin 50000) (k : Fin 128) :
    Ideal.hostScatterAdd Cert.ReferenceIdeal.scatter_S50000x128_S1600000x1_S1600000x128_1_0_0_1 Z
        (Cert.ReferenceIdeal.RRead.val_main_v40 (F := Ideal) x1)
        (Host.gather Cert.ReferenceIdeal.gather_S50000x128_S1600000x1_S1600000x128_1_0_n_n_0_1_1128 T (Cert.ReferenceIdeal.RRead.val_main_v34 (F := Ideal) x1))
        (ix2 n k)
        * Cert.ReferenceIdeal.RRead.val_main_v13 (F := Ideal) x1 (ix1 n)
      = Ideal.hostScatterAdd Cert.ReferenceIdeal.scatter_S50000x128_S1600000x1_S1600000x128_1_0_0_1 (fun _ => 0)
          (Cert.ReferenceIdeal.RRead.val_main_v40 (F := Ideal) x1)
          (fun j => Host.gather Cert.ReferenceIdeal.gather_S50000x128_S1600000x1_S1600000x128_1_0_n_n_0_1_1128 h
              (Cert.ReferenceIdeal.RRead.val_main_v34 (F := Ideal) x1) j * Cert.ReferenceIdeal.HandValue.edgeScale x1 j)
          (ix2 n k) := by
  subst hZ hT
  unfold Cert.ReferenceIdeal.HandValue.edgeScale
  exact scatter_gather_scale h (Cert.ReferenceIdeal.RRead.val_main_v13 (F := Ideal) x1)
    (fun r => (Cert.ReferenceIdeal.HandValue.dis_range x1 r).1) (fun r => (Cert.ReferenceIdeal.HandValue.dis_range x1 r).2)
    (Cert.ReferenceIdeal.RRead.val_main_v34 (F := Ideal) x1) (Cert.ReferenceIdeal.RRead.val_main_v26 (F := Ideal) x1)
    (Cert.ReferenceIdeal.RRead.val_main_v40 (F := Ideal) x1) (Cert.ReferenceIdeal.HandValue.wrap_dst x1) n k

variable (m : (ℓ : Loc nD τ sig) → Buf (Elt Ideal) ℓ) (c : Dev nD)

/-- The degree-factor column the first launch finds reads, at row `n`, the reference's factor of node `n`. -/
theorem dis0_apply (n : Fin 50000) :
    (entry0 m c main_v14 : S50000x1.Idx → EReal) (ix2 n (0 : Fin 1))
      = Cert.ReferenceIdeal.RRead.val_main_v13 (F := Ideal) (argE m c) (ix1 n) := by
  rw [entry0_dis m c]
  exact col_apply _ _ n 0

/-- The bias row the first launch finds reads, at column `j`, the first bias at `j`. -/
theorem b0_apply (j : Fin 128) :
    (entry0 m c main_v31 : S1x128.Idx → EReal) (ix2 (0 : Fin 1) j) = argB1 m c (ix1 j) := by
  rw [entry0_b m c]
  exact shapeCast_a_1a_apply _ _ 0 j

/-- The bias row the second launch finds reads, at column `d`, the second bias at `d`. -/
theorem b1_apply (d : Fin 128) :
    (entry1 m c main_v45 : S1x128.Idx → EReal) (ix2 (0 : Fin 1) d) = argB2 m c (ix1 d) := by
  rw [entry1_b m c]
  exact shapeCast_a_1a_apply _ _ 0 d

/-- The first layer's aggregated rows as the first launch finds them, scaled by the target node's factor, are the
    reference's aggregated rows: the layer law at the node features. -/
theorem agg1_scaled (n : Fin 50000) (k : Fin 128) :
    (HMul.hMul : EReal → EReal → EReal) ((entry0 m c main_v30 : S50000x128.Idx → EReal) (ix2 n k))
        (Cert.ReferenceIdeal.RRead.val_main_v13 (F := Ideal) (argE m c) (ix1 n))
      = Cert.ReferenceIdeal.RRead.val_main_v41 (F := Ideal) (argX m c) (argE m c) (ix2 n k) := by
  rw [entry0_agg m c, scatterAdd_ideal, scatterRows_eq, gatherRows_eq]
  have hT := funext fun i => scaled_apply (argX m c) (Cert.ReferenceIdeal.RRead.val_main_v13 (F := Ideal) (argE m c))
    bcast_S50000_S50000x1_0 bcast_S50000x1_S50000x128_0_1 i
  exact (layer_scaled (argX m c) (argE m c) _ _ Cert.ReferenceIdeal.HandValue.zero_v39 hT n k).trans
    (Cert.ReferenceIdeal.HandValue.a1_apply (argX m c) (argE m c) n k).symm

/-- LAYER ONE. Row `n`, column `j` of the first launch's output array is the reference's first hidden row there, times
    node `n`'s degree factor. -/
theorem layer1 (n : Fin 50000) (j : Fin 128) :
    (exit0 m c (Proc.devRef .tc main_v32) : S50000x128.Idx → EReal) (ix2 n j)
      = Cert.ReferenceIdeal.RRead.val_main_v46 (F := Ideal) (argX m c) (argE m c) (argW1 m c) (argB1 m c) (ix2 n j)
        * Cert.ReferenceIdeal.RRead.val_main_v13 (F := Ideal) (argE m c) (ix1 n) := by
  refine (congrFun (exit0_result m c) (ix2 n j)).trans ?_
  refine (arr0_apply (entry0 m) c n j).trans ?_
  rw [Cert.ReferenceIdeal.HandValue.h1_apply]
  unfold denseRow
  rw [dis0_apply m c n, b0_apply m c j, entry0_w m c]
  simp only [agg1_scaled m c n]

/-- The second layer's aggregated rows as the second launch finds them, scaled by the target node's factor, are the
    reference's: the rows gathered are the first launch's output, which by layer one is the reference's first hidden
    table scaled row by row by the source's factor; then the layer law at that table. -/
theorem agg2_scaled (n : Fin 50000) (k : Fin 128) :
    (HMul.hMul : EReal → EReal → EReal) ((entry1 m c main_v44 : S50000x128.Idx → EReal) (ix2 n k))
        (Cert.ReferenceIdeal.RRead.val_main_v13 (F := Ideal) (argE m c) (ix1 n))
      = Cert.ReferenceIdeal.RRead.val_main_v59 (F := Ideal) (argX m c) (argE m c) (argW1 m c) (argB1 m c) (ix2 n k) := by
  rw [entry1_agg m c, scatterAdd_ideal, scatterRows_eq, gatherRows_eq,
    (Cert.ReferenceIdeal.HandValue.src_cols (argE m c)).2, Cert.ReferenceIdeal.HandValue.dst_cols (argE m c)]
  have hT : (exit0 m c (Proc.devRef .tc main_v32) : S50000x128.Idx → EReal)
      = fun i => Cert.ReferenceIdeal.RRead.val_main_v46 (F := Ideal) (argX m c) (argE m c) (argW1 m c) (argB1 m c) i
          * Cert.ReferenceIdeal.RRead.val_main_v13 (F := Ideal) (argE m c) (ix1 ⟨(i 0).val, idx2_lt0 i⟩) := funext fun i => by
    obtain ⟨r, q, rfl⟩ : ∃ (r : Fin 50000) (q : Fin 128), i = ix2 r q := ⟨i 0, i 1, eq_ix2 i⟩
    exact layer1 m c r q
  exact (layer_scaled (Cert.ReferenceIdeal.RRead.val_main_v46 (F := Ideal) (argX m c) (argE m c) (argW1 m c) (argB1 m c)) (argE m c) _ _
      Cert.ReferenceIdeal.HandValue.zero_v57 hT n k).trans
    (Cert.ReferenceIdeal.HandValue.a2_apply (argX m c) (argE m c) (argW1 m c) (argB1 m c) n k).symm

/-- LAYER TWO. The hidden row of node `n` as the second launch computes it is the reference's second hidden row. -/
theorem layer2 (n : Fin 50000) (d : Fin 128) :
    hidden2 (entry1 m) c n d
      = Cert.ReferenceIdeal.RRead.val_main_v64 (F := Ideal) (argX m c) (argE m c) (argW1 m c) (argB1 m c) (argW2 m c) (argB2 m c) (ix2 n d) := by
  rw [Cert.ReferenceIdeal.HandValue.h2_apply]
  unfold hidden2 denseRow
  rw [entry1_dis m c, dis0_apply m c n, b1_apply m c d, entry1_w m c]
  simp only [agg2_scaled m c n]

end Cert.KernelIdeal.HandValue

end
-- ==== Proof.Bridge.lean ====
/-
  The two programs' results are one array, at the ideal instance: the second kernel launch's result — the classifier
  head of the mean-pooled hidden rows, the pooled sums and counts accumulated tile by tile — is the reference's, whose
  pooling is a scatter-add by graph id: the hidden rows agree (layer two), the graph-id column, the classifier's
  weights and bias are the same arguments, and both poolings are the indicator-weighted sums over all nodes.
-/
import proofs.«428788_j14774687498490_3_alg».proof.Proof.BridgeK
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.Proof.Index Cert.Proof.Law
open scoped BigOperators

variable (m : (ℓ : Loc nD τ sig) → Buf (Elt Ideal) ℓ) (c : Dev nD)

/-- THE RESULT. What the kernel program leaves in its result buffer is the reference's result as a function of the
    same arguments. -/
theorem result_eq :
    (exit1 m c (Proc.devRef .tc main_v47) : S64x8.Idx → EReal)
      = Cert.ReferenceIdeal.RRead.val_main_v80 (F := Ideal) (argX m c) (argE m c) (argG m c) (argW1 m c) (argB1 m c) (argW2 m c) (argB2 m c)
          (argWc m c) (argBc m c) := by
  funext i
  obtain ⟨g, q, rfl⟩ : ∃ (g : Fin 64) (q : Fin 8), i = ix2 g q := ⟨i 0, i 1, eq_ix2 i⟩
  have hgid : ∀ n : Fin 50000, (entry1 m c main_v15 : S50000x1.Idx → BitVec 32) (ix2 n 0) = argG m c (ix1 n) := fun n => by
    rw [entry1_gid]; exact col_apply _ _ n 0
  have hbc : (entry1 m c main_v46 : S1x8.Idx → EReal) (ix2 0 q) = argBc m c (ix1 q) := by
    rw [entry1_bc]; exact shapeCast_a_1a_apply _ _ 0 q
  have hwc : ∀ d : Fin 128, (entry1 m c main_arg7 : S128x8.Idx → EReal) (ix2 d q) = argWc m c (ix2 d q) :=
    fun d => congrFun (entry1_wc m c) _
  rw [exit1_result]
  refine (arr1_apply (entry1 m) c g q).trans ?_
  rw [Cert.ReferenceIdeal.HandValue.out_apply]
  simp only [hgid, hbc, layer2, hwc]

end Cert.KernelIdeal.HandValue

end
-- ==== Proof.lean ====
/-
  The certificate's five claims. Both kernel programs (the word-level one and its idealization, the same text) are
  walked item by item — three host stretches, the dense-layer launch, a host stretch, the pooling-and-classifier
  launch — which gives their frames and, at the ideal instance, the result buffer's contents as a function of the
  arguments. The reference's frame is its run. The ideal pass rewrote nothing, so the idealization is trivially the
  sanctioned one. The algebraic claim: on the extended reals the kernel program's result is the reference's, because
  the per-node degree factor, being non-negative and finite, may be applied to the aggregated row after the
  scatter-add instead of to every edge's message before it, and pooling by a one-hot matrix product, tile by tile, is
  pooling by scatter-add.
-/
import proofs.«428788_j14774687498490_3_alg».proof.Defs
import proofs.«428788_j14774687498490_3_alg».proof.Proof.Gen.Kernel
import proofs.«428788_j14774687498490_3_alg».proof.Proof.Gen.KernelIdeal
import proofs.«428788_j14774687498490_3_alg».proof.Proof.Gen.ReferenceIdeal
import proofs.«428788_j14774687498490_3_alg».proof.Proof.Gen.Pre_finite_inputs
import proofs.«428788_j14774687498490_3_alg».proof.Proof.WWalk
import proofs.«428788_j14774687498490_3_alg».proof.Proof.Bridge

noncomputable section

namespace Cert.Proof

open Idealize.ShloMosaic Idealize.ShloMosaic.TcCoe Idealize.SL.Sem

/-- The word-level program runs to the end, faults nowhere, and leaves its arguments as launched. -/
theorem frame_k : Cert.frame_Kernel := fun m ρ _ =>
  (θ_run (Cert.Kernel.defs (F := Bits)) _ _).mono (fun _ h c => (h c).2) (Cert.Kernel.Hand.run_all (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run_all (F := Ideal) m ρ)

/-- The reference is a line of host operations: its run, with the result dropped. -/
theorem frame_ri : Cert.frame_ReferenceIdeal := fun m ρ _ =>
  (θ_run (Cert.ReferenceIdeal.defs (F := Ideal)) _ _).mono (fun _ h c => (h c).2) (Cert.ReferenceIdeal.RValue.run (F := Ideal) m ρ)

/-- From memories that agree on the arguments both programs end with the same result array. -/
theorem algebraic : Cert.algebraic_KernelIdeal_ReferenceIdeal := by
  intro m ρ m' ρ' _ hagree
  refine ⟨fun c => Cert.KernelIdeal.Hand.exit1 m c (Proc.devRef .tc Cert.KernelIdeal.main_v47),
    Cert.KernelIdeal.Hand.run_all (F := Ideal) m ρ, ?_⟩
  refine (θ_run (Cert.ReferenceIdeal.defs (F := Ideal)) _ _).mono (fun _ h c => ⟨(h c).1.trans ?_, (h c).2⟩)
    (Cert.ReferenceIdeal.RValue.run (F := Ideal) m' ρ')
  rw [Cert.ReferenceIdeal.RRead.val_main_v80_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.HandValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
